-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x4096x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x4096x1024 : Shape := ⟨3, ![4, 4096, 1024]⟩
abbrev S1024x1024 : Shape := ⟨2, ![1024, 1024]⟩
abbrev S1024 : Shape := ⟨1, ![1024]⟩
abbrev S4x1024x1024 : Shape := ⟨3, ![4, 1024, 1024]⟩
abbrev S1x256x1024 : Shape := ⟨3, ![1, 256, 1024]⟩
abbrev S1x1024x1024 : Shape := ⟨3, ![1, 1024, 1024]⟩
abbrev S256x1024 : Shape := ⟨2, ![256, 1024]⟩
abbrev S1x1024 : Shape := ⟨2, ![1, 1024]⟩
abbrev S1x512x1024 : Shape := ⟨3, ![1, 512, 1024]⟩
abbrev S512x1024 : Shape := ⟨2, ![512, 1024]⟩

abbrev nBuf : Space → Nat
  | .hbm => 9
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x1024x1024, .f32⟩
  | .hbm, ⟨8, _⟩ => ⟨S4x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1024x1024, .f32⟩
  | .local _ .vmem, ⟨3, _⟩ => ⟨S1024, .f32⟩
  | .local _ .vmem, ⟨4, _⟩ => ⟨S1024x1024, .f32⟩
  | .local _ .vmem, ⟨5, _⟩ => ⟨S1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1024x1024, .f32⟩
  | .local _ .vmem, ⟨9, _⟩ => ⟨S1x512x1024, .f32⟩
  | .local _ .vmem, ⟨10, _⟩ => ⟨S1x512x1024, .f32⟩
  | .local _ .vmem, ⟨11, _⟩ => ⟨S1024x1024, .f32⟩
  | .local _ .vmem, ⟨12, _⟩ => ⟨S1024, .f32⟩
  | .local _ .vmem, ⟨13, _⟩ => ⟨S1x1024x1024, .f32⟩
  | .local _ .vmem, ⟨14, _⟩ => ⟨S1x1024x1024, .f32⟩
  | .local _ .vmem, ⟨15, _⟩ => ⟨S1x512x1024, .f32⟩
  | .local _ .vmem, ⟨16, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v30 : BitVec 1 := Scalar.cmpi .eq arg1 c15_i32
  let v31 : BitVec 32 := Scalar.extui v30
  let c0_i32_16 : BitVec 32 := 0#32
  let v32 : BitVec 1 := Scalar.cmpi .ne v31 c0_i32_16
  v32

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  bitsLt_bf16_f32 : FTy.bits .bf16 < FTy.bits .f32
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  broadcasts_S1x1024_S512x1024 : S1x1024.Broadcasts S512x1024
  shapeCasts_S512x1024_S1x512x1024 : S512x1024.ShapeCasts S1x512x1024
  dot_S256x1024_S1024x1024_S256x1024_1_1_0_0_n_n_wf : DotDims.WF S256x1024 S1024x1024 S256x1024 [1] [1] [0] [0] [] []
  dot_S256x1024_S256x1024_S1024x1024_0_0_1_1_n_n_wf : DotDims.WF S256x1024 S256x1024 S1024x1024 [0] [0] [1] [1] [] []
  dot_S512x1024_S1024x1024_S512x1024_1_1_0_0_n_n_wf : DotDims.WF S512x1024 S1024x1024 S512x1024 [1] [1] [0] [0] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S4x4096x1024.size a
  hwx0_0 : ∀ i : grid0.Coords, EltTy.bits .f32 = 32 ∨ (Rect.block (s := S4x4096x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1024.size a ≤ S4x1024x1024.size a
  hwx0_5 : ∀ i : grid0.Coords, EltTy.bits .f32 = 32 ∨ (Rect.block (s := S4x1024x1024) S1x1024x1024.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x4096x1024.size a
  hwx1_0 : ∀ i : grid1.Coords, EltTy.bits .f32 = 32 ∨ (Rect.block (s := S4x4096x1024) S1x512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x1024x1024.size a
  hwx1_3 : ∀ i : grid1.Coords, EltTy.bits .f32 = 32 ∨ (Rect.block (s := S4x1024x1024) S1x1024x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x1024.size a ≤ S4x4096x1024.size a
  hwx1_4 : ∀ i : grid1.Coords, EltTy.bits .f32 = 32 ∨ (Rect.block (s := S4x4096x1024) S1x512x1024.size (cc1_transform_4 i) (hinb1_4 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S256x1024_S256x1024_S1024x1024_0_0_1_1_n_n : DotDims S256x1024 S256x1024 S1024x1024 where
  lhsContracting := [0]
  rhsContracting := [0]
  lhsNonContracting := [1]
  rhsNonContracting := [1]
  lhsBatch := []
  rhsBatch := []
  wf := dot_S256x1024_S256x1024_S1024x1024_0_0_1_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg0) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1x1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x512x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S4x1024x1024 : Shape := ⟨3, ![4, 1024, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x4096x1024, .f32⟩
  | .hbm, ⟨8, _⟩ => ⟨S1x1x1024, .f32⟩
  | .hbm, ⟨9, _⟩ => ⟨S4x4096x1024, .f32⟩
  | .hbm, ⟨10, _⟩ => ⟨S4x4096x1024, .f32⟩
  | .hbm, ⟨11, _⟩ => ⟨S4x4096x1024, .f32⟩
  | .hbm, ⟨12, _⟩ => ⟨S1x1x1024, .f32⟩
  | .hbm, ⟨13, _⟩ => ⟨S4x4096x1024, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4x1024x1024, .f32⟩
  | .hbm, ⟨24, _⟩ => ⟨S4x1024x1024, .f32⟩
  | .hbm, ⟨25, _⟩ => ⟨S4x1024x1024, .f32⟩
  | .hbm, ⟨26, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  bcast_S_S4x1024x1024 : S_.BroadcastsInDim S4x1024x1024 (![] : Fin 0 → Fin S4x1024x1024.rank)
  dot_S4x4096x1024_S1024x1024_S4x4096x1024_2_1_01_0_n_n_wf : DotDims.WF S4x4096x1024 S1024x1024 S4x4096x1024 [2] [1] [0, 1] [0] [] []
  dot_S4x4096x1024_S4x4096x1024_S4x1024x1024_1_1_2_2_0_0_wf : DotDims.WF S4x4096x1024 S4x4096x1024 S4x1024x1024 [1] [1] [2] [2] [0] [0]
  dot_S4x4096x1024_S4x1024x1024_S4x4096x1024_2_1_1_2_0_0_wf : DotDims.WF S4x4096x1024 S4x1024x1024 S4x4096x1024 [2] [1] [1] [2] [0] [0]

variable [Facts₀]

def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf
def dot_S4x4096x1024_S4x4096x1024_S4x1024x1024_1_1_2_2_0_0 : DotDims S4x4096x1024 S4x4096x1024 S4x1024x1024 where
  lhsContracting := [1]
  rhsContracting := [1]
  lhsNonContracting := [2]
  rhsNonContracting := [2]
  lhsBatch := [0]
  rhsBatch := [0]
  wf := dot_S4x4096x1024_S4x4096x1024_S4x1024x1024_1_1_2_2_0_0_wf
def dot_S4x4096x1024_S4x1024x1024_S4x4096x1024_2_1_1_2_0_0 : DotDims S4x4096x1024 S4x1024x1024 S4x4096x1024 where
  lhsContracting := [2]
  rhsContracting := [1]
  lhsNonContracting := [1]
  rhsNonContracting := [2]
  lhsBatch := [0]
  rhsBatch := [0]
  wf := dot_S4x4096x1024_S4x1024x1024_S4x4096x1024_2_1_1_2_0_0_wf

class Facts : Prop extends Facts₀ where

variable [Facts]
-- ==== Proof.KB.R0Shared.lean ====
/-
  Region 0 (the K-transpose-times-V accumulation over the sequence tiles): what its three control cases share.
  The first conditional holds where the tile coordinate is 0 (the accumulator is reset), the second where it is
  15 (the accumulator is copied to the output block).  The grid is 4 batches by 16 tiles, so a point t is of the
  first kind iff t % 16 = 0 and of the last kind iff t % 16 = 15.
-/
import proofs.«101504_j21363167330926_1_alg».proof.Proof.Gen.Kernel.Launch
import proofs.«101504_j21363167330926_1_alg».proof.Proof.Gen.Kernel.Skeleton
import proofs.«101504_j21363167330926_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch conditions over the grid -/

/-- The accumulator is reset at this point: the tile coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The accumulator is copied out at this point: the tile coordinate is 15. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from the last tile nothing is stored into the output block, and it is not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-! ## The memrefs the body is called with -/

abbrev VO0_5 : View sig .tc .vmem S1x1024x1024 .f32 := (Memref.whole cc0_stg5_0 : Memref sig .tc .vmem S1x1024x1024 .f32).view
abbrev ms0_0 (t : Fin cfg0.N) : Memref sig .tc .vmem S1x256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x1024 .f32 := win0_5.stage (cfg0.slots t 5)
abbrev hs0_5 (t : Fin cfg0.N) : (ms0_5 t).IsWhole := hstage0_5 ((cfg0.slots t 5).cast nbuf0_5)
/-- The accumulator: a whole scoped buffer of the kernel's own. -/
abbrev scM0_0 : Memref sig .tc .vmem S1024x1024 .f32 := Memref.whole cc0_scratch0
abbrev VS0_0 : View sig .tc .vmem S1024x1024 .f32 := scM0_0.view

end Cert.Kernel.Hand

end
-- ==== Proof.KB.R0Data.lean ====
/-
  Region 0: the proof data.  Per batch β the 16 sequence tiles s = 0 … 15 are visited in order; the accumulator
  starts from the zero matrix at s = 0 and each tile adds (K_tileᵀ · V_tile) · 2⁻⁵ to it, K_tile and V_tile the
  dense layers of the tile's 256 rows of x; at s = 15 the accumulator is the output block of batch β.
-/
import proofs.«101504_j21363167330926_1_alg».proof.Proof.KB.R0Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The five input blocks at their literal types: the tile of x, and the whole wk, bk, wv, bv. -/
abbrev xb0 (c : Dev nD) (t : Fin cfg0.N) : Vec F S1x256x1024 .f32 := iblk0 V c 0 t
abbrev wkb0 (c : Dev nD) (t : Fin cfg0.N) : Vec F S1024x1024 .f32 := iblk0 V c 1 t
abbrev bkb0 (c : Dev nD) (t : Fin cfg0.N) : Vec F S1024 .f32 := iblk0 V c 2 t
abbrev wvb0 (c : Dev nD) (t : Fin cfg0.N) : Vec F S1024x1024 .f32 := iblk0 V c 3 t
abbrev bvb0 (c : Dev nD) (t : Fin cfg0.N) : Vec F S1024 .f32 := iblk0 V c 4 t

/-- One tile's update of the accumulator: acc + (K_tileᵀ · V_tile) · 2⁻⁵. -/
abbrev step0 (c : Dev nD) (t : Fin cfg0.N) (acc : Vec F S1024x1024 .f32) : Vec F S1024x1024 .f32 :=
  k0_pay2 (xb0 V c t) (wkb0 V c t) (wvb0 V c t) (bkb0 V c t) (bvb0 V c t) acc

/-- THE ACCUMULATION: the accumulator after point n — from the zero matrix at the first tile of a batch, else from
    what the point before left. -/
def accAt0 (c : Dev nD) : (n : ℕ) → n < cfg0.N → Vec F S1024x1024 .f32
  | 0, hn => step0 V c ⟨0, hn⟩ (k0_pay1 (F := F))
  | n + 1, hn =>
    if (n + 1) % 16 = 0 then step0 V c ⟨n + 1, hn⟩ (k0_pay1 (F := F))
    else step0 V c ⟨n + 1, hn⟩ (accAt0 c n (Nat.lt_of_succ_lt hn))

theorem accAt0_reset (c : Dev nD) (t : Fin cfg0.N) (h0 : t.val % 16 = 0) :
    accAt0 V c t.val t.isLt = step0 V c t (k0_pay1 (F := F)) := by
  obtain ⟨n, hn⟩ := t
  cases n with
  | zero => rfl
  | succ n => exact if_pos h0

theorem accAt0_acc (c : Dev nD) (t : Fin cfg0.N) (h0 : ¬t.val % 16 = 0) :
    accAt0 V c t.val t.isLt = step0 V c t (accAt0 V c (t.val - 1) (Nat.lt_of_le_of_lt (Nat.sub_le _ _) t.isLt)) := by
  obtain ⟨n, hn⟩ := t
  cases n with
  | zero => exact absurd (Nat.zero_mod _) h0
  | succ n => exact if_neg h0

/-- The region invariant before position n: before the first point every scoped buffer no window stages at anything
    and the generator register at some state; afterwards the accumulator at what the point before left. -/
def PhiS (c : Dev nD) : (n : ℕ) → n ≤ cfg0.N → sProp 𝕄
  | 0, _ => Pipeline.ΦA spec0 c
  | n + 1, hn => iprop(iprop(owns (c : Thread nD τ) scM0_0 fullShare (accAt0 V c n hn)
      ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))
      ∗ (∃ r, prngReg c r))

/-- The proof data of region 0 on core c: the arrays as the region finds them; after the body each input's buffer at
    its block and the output block at the accumulator recast to [1, 1024, 1024] (consulted only at the last tile of a
    batch, where it is written back); the invariant PhiS; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay3 (accAt0 V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = k0_pay3 (accAt0 V c t.val t.isLt) := by dsimp only [dat0]

end Cert.Kernel.Hand

end
-- ==== Proof.KB.R0RunA.lean ====
/-
  Region 0, the first tile of a batch: the accumulator, at anything, is reset to the zero matrix and then overwritten
  by the tile's update of it; nothing is stored into the output block.
-/
import proofs.«101504_j21363167330926_1_alg».proof.Proof.KB.R0Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at the first tile of a batch, on whole memrefs: the inputs and the output block come back as found, the
    accumulator with the pieces LS0 written (the list the run finds: the reset, then the update over it). -/
noncomputable def kernelRun0_A (c : Dev nD) (i : grid0.Coords) (arg2 : Memref sig .tc .vmem S1x256x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S1024x1024 .f32) (harg5 : arg5.IsWhole) (arg6 : Memref sig .tc .vmem S1024 .f32) (harg6 : arg6.IsWhole) (arg7 : Memref sig .tc .vmem S1x1024x1024 .f32) (harg7 : arg7.IsWhole) (arg8 : Memref sig .tc .vmem S1024x1024 .f32) (harg8 : arg8.IsWhole) (hc0 : cond0_0 i) (hc1 : ¬cond0_1 i)
    (x0 : Vec F S1x256x1024 .f32) (x1 : Vec F S1024x1024 .f32) (x2 : Vec F S1024 .f32) (x3 : Vec F S1024x1024 .f32) (x4 : Vec F S1024 .f32) :
    { LS0 : List (View.Piece (Elt F) S1024x1024 .f32) //
      ∀ (xi5 : Vec F S1x1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__kv_kernel i arg2 harg2 arg3 harg3 arg4 harg4 arg5 harg5 arg6 harg6 arg7 harg7 arg8 harg8) K } := by
  refine ⟨?_, fun xi5 E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.KB.R0RunB.lean ====
/-
  Region 0, a middle tile (neither the first nor the last of its batch): the accumulator, found at xs0, is
  overwritten by one store; nothing is stored into the output block.
-/
import proofs.«101504_j21363167330926_1_alg».proof.Proof.KB.R0Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a middle tile, on whole memrefs: the inputs and the output block come back as found, the accumulator
    with the pieces LS0 written (the list the run finds). -/
noncomputable def kernelRun0_B (c : Dev nD) (i : grid0.Coords) (arg2 : Memref sig .tc .vmem S1x256x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S1024x1024 .f32) (harg5 : arg5.IsWhole) (arg6 : Memref sig .tc .vmem S1024 .f32) (harg6 : arg6.IsWhole) (arg7 : Memref sig .tc .vmem S1x1024x1024 .f32) (harg7 : arg7.IsWhole) (arg8 : Memref sig .tc .vmem S1024x1024 .f32) (harg8 : arg8.IsWhole) (hc0 : ¬cond0_0 i) (hc1 : ¬cond0_1 i)
    (x0 : Vec F S1x256x1024 .f32) (x1 : Vec F S1024x1024 .f32) (x2 : Vec F S1024 .f32) (x3 : Vec F S1024x1024 .f32) (x4 : Vec F S1024 .f32) (xs0 : Vec F S1024x1024 .f32) :
    { LS0 : List (View.Piece (Elt F) S1024x1024 .f32) //
      ∀ (xi5 : Vec F S1x1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__kv_kernel i arg2 harg2 arg3 harg3 arg4 harg4 arg5 harg5 arg6 harg6 arg7 harg7 arg8 harg8) K } := by
  refine ⟨?_, fun xi5 E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.KB.R0RunC.lean ====
/-
  Region 0, the last tile of a batch: the accumulator, found at xs0, is overwritten by the tile's update of it, and
  the result is copied into the output block (found at anything).
-/
import proofs.«101504_j21363167330926_1_alg».proof.Proof.KB.R0Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at the last tile of a batch, on whole memrefs: the inputs come back as found, the output block with the
    pieces L5 written and the accumulator with the pieces LS0 written (the lists the run finds). -/
noncomputable def kernelRun0_C (c : Dev nD) (i : grid0.Coords) (arg2 : Memref sig .tc .vmem S1x256x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S1024x1024 .f32) (harg5 : arg5.IsWhole) (arg6 : Memref sig .tc .vmem S1024 .f32) (harg6 : arg6.IsWhole) (arg7 : Memref sig .tc .vmem S1x1024x1024 .f32) (harg7 : arg7.IsWhole) (arg8 : Memref sig .tc .vmem S1024x1024 .f32) (harg8 : arg8.IsWhole) (hc0 : ¬cond0_0 i) (hc1 : cond0_1 i)
    (x0 : Vec F S1x256x1024 .f32) (x1 : Vec F S1024x1024 .f32) (x2 : Vec F S1024 .f32) (x3 : Vec F S1024x1024 .f32) (x4 : Vec F S1024 .f32) (xs0 : Vec F S1024x1024 .f32) :
    Σ' (L5 : List (View.Piece (Elt F) S1x1024x1024 .f32)), { LS0 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__kv_kernel i arg2 harg2 arg3 harg3 arg4 harg4 arg5 harg5 arg6 harg6 arg7 harg7 arg8 harg8) K } := by
  refine ⟨?_, ?_, fun E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Hand

end
-- ==== Proof.KB.R0Pieces.lean ====
/-
  Region 0: what each control case leaves in the accumulator and in the output block, as values.  A store through the
  whole-buffer rectangle leaves its payload whatever was there; a load of the whole buffer after such a store reads it.
  So the first tile leaves the update of the zero matrix, a middle tile the update of what it found, and the last tile
  also the output block at the updated accumulator recast to [1, 1024, 1024].
-/
import proofs.«101504_j21363167330926_1_alg».proof.Proof.KB.R0RunA
import proofs.«101504_j21363167330926_1_alg».proof.Proof.KB.R0RunB
import proofs.«101504_j21363167330926_1_alg».proof.Proof.KB.R0RunC
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem hz2 : (![0, 0] : Fin S1024x1024.rank → Nat) = fun _ => 0 := by funext a; fin_cases a <;> rfl
theorem hz3 : (![0, 0, 0] : Fin S1x256x1024.rank → Nat) = fun _ => 0 := by funext a; fin_cases a <;> rfl
theorem hz3o : (![0, 0, 0] : Fin S1x1024x1024.rank → Nat) = fun _ => 0 := by funext a; fin_cases a <;> rfl
theorem hz1 : (![0] : Fin S1024.rank → Nat) = fun _ => 0 := by funext a; fin_cases a <;> rfl

section
variable (c : Dev nD) (i : grid0.Coords) (arg2 : Memref sig .tc .vmem S1x256x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S1024x1024 .f32) (harg5 : arg5.IsWhole) (arg6 : Memref sig .tc .vmem S1024 .f32) (harg6 : arg6.IsWhole) (arg7 : Memref sig .tc .vmem S1x1024x1024 .f32) (harg7 : arg7.IsWhole) (arg8 : Memref sig .tc .vmem S1024x1024 .f32) (harg8 : arg8.IsWhole) (x0 : Vec F S1x256x1024 .f32) (x1 : Vec F S1024x1024 .f32) (x2 : Vec F S1024 .f32) (x3 : Vec F S1024x1024 .f32) (x4 : Vec F S1024 .f32)

/-! ## The first tile of a batch -/

theorem scover0_A (hc0 : cond0_0 i) (hc1 : ¬cond0_1 i) (y : S1024x1024.Idx) :
    ∃ pc ∈ (kernelRun0_A c i arg2 harg2 arg3 harg3 arg4 harg4 arg5 harg5 arg6 harg6 arg7 harg7 arg8 harg8 hc0 hc1 x0 x1 x2 x3 x4).1, y ∈ pc.1.set :=
  View.cover_of_tiledL _ S1024x1024.size (by sl_kernel_rfl) y

/-- The accumulator after the first tile: the update of the zero matrix. -/
theorem sleft0_A (hc0 : cond0_0 i) (hc1 : ¬cond0_1 i) (f : arg8.view.ty.Contents (Elt F)) :
    arg8.view.read (Elt F) (arg8.view.writes (Elt F) f (kernelRun0_A c i arg2 harg2 arg3 harg3 arg4 harg4 arg5 harg5 arg6 harg6 arg7 harg7 arg8 harg8 hc0 hc1 x0 x1 x2 x3 x4).1)
      = k0_pay2 x0 x1 x3 x2 x4 (k0_pay1 (F := F)) := by
  rw [View.read_writes_eq_canon _ _ _ (scover0_A c i arg2 harg2 arg3 harg3 arg4 harg4 arg5 harg5 arg6 harg6 arg7 harg7 arg8 harg8 x0 x1 x2 x3 x4 hc0 hc1)]
  unfold kernelRun0_A
  dsimp only
  sl_unfold_words
  rw [View.canon_cons_unit_zero (S := S1024x1024) hz2]
  simp only [View.readAt_eq_ld, harg2.read_unread, harg3.read_unread, harg4.read_unread, harg5.read_unread, harg6.read_unread, harg7.read_unread, harg8.read_unread, View.readCov_unit_zero (S := S1024x1024) _ hz2, View.ld_unit_zero (S := S1024x1024) hz2, View.ld_unit_zero (S := S1x256x1024) hz3, View.ld_unit_zero (S := S1024) hz1, View.ld_unit_zero (S := S1x1024x1024) hz3o]

/-! ## A middle tile -/

theorem scover0_B (hc0 : ¬cond0_0 i) (hc1 : ¬cond0_1 i) (xs0 : Vec F S1024x1024 .f32) (y : S1024x1024.Idx) :
    ∃ pc ∈ (kernelRun0_B c i arg2 harg2 arg3 harg3 arg4 harg4 arg5 harg5 arg6 harg6 arg7 harg7 arg8 harg8 hc0 hc1 x0 x1 x2 x3 x4 xs0).1, y ∈ pc.1.set :=
  View.cover_of_tiledL _ S1024x1024.size (by sl_kernel_rfl) y

/-- The accumulator after a middle tile: the update of what it found. -/
theorem sleft0_B (hc0 : ¬cond0_0 i) (hc1 : ¬cond0_1 i) (xs0 : Vec F S1024x1024 .f32) (f : arg8.view.ty.Contents (Elt F)) :
    arg8.view.read (Elt F) (arg8.view.writes (Elt F) f (kernelRun0_B c i arg2 harg2 arg3 harg3 arg4 harg4 arg5 harg5 arg6 harg6 arg7 harg7 arg8 harg8 hc0 hc1 x0 x1 x2 x3 x4 xs0).1)
      = k0_pay2 x0 x1 x3 x2 x4 xs0 := by
  rw [View.read_writes_eq_canon _ _ _ (scover0_B c i arg2 harg2 arg3 harg3 arg4 harg4 arg5 harg5 arg6 harg6 arg7 harg7 arg8 harg8 x0 x1 x2 x3 x4 hc0 hc1 xs0)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S1024x1024) hz2, View.ld_unit_zero (S := S1x256x1024) hz3, View.ld_unit_zero (S := S1024) hz1, View.ld_unit_zero (S := S1x1024x1024) hz3o]

/-! ## The last tile of a batch -/

theorem scover0_C (hc0 : ¬cond0_0 i) (hc1 : cond0_1 i) (xs0 : Vec F S1024x1024 .f32) (y : S1024x1024.Idx) :
    ∃ pc ∈ (kernelRun0_C c i arg2 harg2 arg3 harg3 arg4 harg4 arg5 harg5 arg6 harg6 arg7 harg7 arg8 harg8 hc0 hc1 x0 x1 x2 x3 x4 xs0).2.1, y ∈ pc.1.set :=
  View.cover_of_tiledL _ S1024x1024.size (by sl_kernel_rfl) y

theorem cover0_C (hc0 : ¬cond0_0 i) (hc1 : cond0_1 i) (xs0 : Vec F S1024x1024 .f32) (y : S1x1024x1024.Idx) :
    ∃ pc ∈ (kernelRun0_C c i arg2 harg2 arg3 harg3 arg4 harg4 arg5 harg5 arg6 harg6 arg7 harg7 arg8 harg8 hc0 hc1 x0 x1 x2 x3 x4 xs0).1, y ∈ pc.1.set :=
  View.cover_of_tiledL _ S1x1024x1024.size (by sl_kernel_rfl) y

/-- The accumulator after the last tile: the update of what it found. -/
theorem sleft0_C (hc0 : ¬cond0_0 i) (hc1 : cond0_1 i) (xs0 : Vec F S1024x1024 .f32) (f : arg8.view.ty.Contents (Elt F)) :
    arg8.view.read (Elt F) (arg8.view.writes (Elt F) f (kernelRun0_C c i arg2 harg2 arg3 harg3 arg4 harg4 arg5 harg5 arg6 harg6 arg7 harg7 arg8 harg8 hc0 hc1 x0 x1 x2 x3 x4 xs0).2.1)
      = k0_pay2 x0 x1 x3 x2 x4 xs0 := by
  rw [View.read_writes_eq_canon _ _ _ (scover0_C c i arg2 harg2 arg3 harg3 arg4 harg4 arg5 harg5 arg6 harg6 arg7 harg7 arg8 harg8 x0 x1 x2 x3 x4 hc0 hc1 xs0)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S1024x1024) hz2, View.ld_unit_zero (S := S1x256x1024) hz3, View.ld_unit_zero (S := S1024) hz1, View.ld_unit_zero (S := S1x1024x1024) hz3o]

/-- The output block after the last tile: the updated accumulator recast. -/
theorem oleft0_C (hc0 : ¬cond0_0 i) (hc1 : cond0_1 i) (xs0 : Vec F S1024x1024 .f32) (f : arg7.view.ty.Contents (Elt F)) :
    arg7.view.read (Elt F) (arg7.view.writes (Elt F) f (kernelRun0_C c i arg2 harg2 arg3 harg3 arg4 harg4 arg5 harg5 arg6 harg6 arg7 harg7 arg8 harg8 hc0 hc1 x0 x1 x2 x3 x4 xs0).1)
      = k0_pay3 (k0_pay2 x0 x1 x3 x2 x4 xs0) := by
  rw [View.read_writes_eq_canon _ _ _ (cover0_C c i arg2 harg2 arg3 harg3 arg4 harg4 arg5 harg5 arg6 harg6 arg7 harg7 arg8 harg8 x0 x1 x2 x3 x4 hc0 hc1 xs0)]
  unfold kernelRun0_C
  dsimp only
  sl_unfold_words
  rw [View.canon_unit_zero hz3o]
  simp only [View.readAt_eq_ld, harg2.read_unread, harg3.read_unread, harg4.read_unread, harg5.read_unread, harg6.read_unread, harg7.read_unread, harg8.read_unread, View.readCov_unit_zero (S := S1024x1024) _ hz2, View.ld_unit_zero (S := S1024x1024) hz2, View.ld_unit_zero (S := S1x256x1024) hz3, View.ld_unit_zero (S := S1024) hz1, View.ld_unit_zero (S := S1x1024x1024) hz3o]

end

end Cert.Kernel.Hand

end
-- ==== Proof.KB.R0Frame.lean ====
/-
  Region 0: the body obligation.  At every point the five inputs' buffers hold their blocks; the point's position in
  its batch (first tile, middle tile, last tile) selects the case, whose run leaves the accumulator at the tile's update
  of what it started from (the zero matrix at a first tile) and, at a last tile, the output block at the accumulator.
-/
import proofs.«101504_j21363167330926_1_alg».proof.Proof.KB.R0Data
import proofs.«101504_j21363167330926_1_alg».proof.Proof.KB.R0Pieces

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' buffers hold their blocks at every point -/

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

/-! ## The invariant between points -/

/-- The scoped buffers of the other region, each whole at some contents. -/
abbrev others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- Before the first point: the accumulator at anything, the other region's scoped buffers, the generator register. -/
theorem PhiA0_eq (c : Dev nD) :
    (Pipeline.ΦA spec0 c : sProp 𝕄)
      = iprop(iprop((∃ d, owns (c : Thread nD τ) scM0_0 fullShare d) ∗ others0 (F := F) c) ∗ (∃ r, prngReg c r)) := by
  unfold Pipeline.ΦA; rw [scopedRest0_eq]; simp only [scM0_0, owns_whole]; try rfl

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare (accAt0 V c n hn) ∗ others0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare (accAt0 V c (n - 1) (by omega)) ∗ others0 (F := F) c) ∗ (∃ r, prngReg c r)) := by
  cases n with
  | zero => exact absurd rfl hz
  | succ n => rfl

theorem PhiS_castSucc (c : Dev nD) (t : Fin cfg0.N) :
    (dat0 V c).Φ t.castSucc = PhiS V c t.val (Nat.le_of_lt t.isLt) := by
  dsimp only [dat0]; simp only [Fin.coe_castSucc]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 8000000 in
/-- The body at any point: the case the point's position in its batch selects. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  by_cases h0 : t.val % 16 = 0
  · have h1 : ¬t.val % 16 = 15 := by omega
    have hc0 : cond0_0 (grid0.coords t) := (hcond0_0 t).mpr h0
    have hc1 : ¬cond0_1 (grid0.coords t) := fun h => h1 ((hcond0_1 t).mp h)
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [show (dat0 V c).leavesExact 2 t = owns (c : Thread nD τ) (ms0_2 t) fullShare ((dat0 V c).after 2 t) from by
      unfold Dat.leavesExact; rw [liveAt0_2 t], after0_2]
    rw [show (dat0 V c).leavesExact 3 t = owns (c : Thread nD τ) (ms0_3 t) fullShare ((dat0 V c).after 3 t) from by
      unfold Dat.leavesExact; rw [liveAt0_3 t], after0_3]
    rw [show (dat0 V c).leavesExact 4 t = owns (c : Thread nD τ) (ms0_4 t) fullShare ((dat0 V c).after 4 t) from by
      unfold Dat.leavesExact; rw [liveAt0_4 t], after0_4]
    rw [Dat.leavesExact_idle (dat0 V c) 5 t (idleAt0_5 t hc1) (noFlush0_5 t hc1)]
    rw [accAt0_reset V c t h0]
    by_cases hz : t.val = 0
    · rw [PhiS_castSucc V c t, PhiS_zero V c _ _ hz, PhiA0_eq]
      iintro ⟨⟨⟨HS0, Hr⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ hc0 hc1 (xb0 V c t) (wkb0 V c t) (bkb0 V c t) (wvb0 V c t) (bvb0 V c t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hr Hg]
      · isplitl [HS0 Hr]
        · isplitl [HS0]
          · unfold owns; iexists _; isplitr
            swap; · iexact HS0
            ipureintro; exact sleft0_A c _ _ _ _ _ _ _ _ _ _ _ _ _ _ _ _ _ _ _ _ hc0 hc1 _
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ hc0 hc1 (xb0 V c t) (wkb0 V c t) (bkb0 V c t) (wvb0 V c t) (bvb0 V c t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 Hr Hg]
      · isplitl [HS0 Hr]
        · isplitl [HS0]
          · unfold owns; iexists _; isplitr
            swap; · iexact HS0
            ipureintro; exact sleft0_A c _ _ _ _ _ _ _ _ _ _ _ _ _ _ _ _ _ _ _ _ hc0 hc1 _
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hc0 : ¬cond0_0 (grid0.coords t) := fun h => h0 ((hcond0_0 t).mp h)
    have hz : t.val ≠ 0 := fun h => h0 (by rw [h])
    by_cases h1 : t.val % 16 = 15
    · have hc1 : cond0_1 (grid0.coords t) := (hcond0_1 t).mpr h1
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t hc1], after0_5]
      rw [accAt0_acc V c t h0]
      rw [PhiS_castSucc V c t, PhiS_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ hc0 hc1 (xb0 V c t) (wkb0 V c t) (bkb0 V c t) (wvb0 V c t) (bvb0 V c t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hr Hg]
      · isplitl [HS0 Hr]
        · isplitl [HS0]
          · unfold owns; iexists _; isplitr
            swap; · iexact HS0
            ipureintro; exact sleft0_C c _ _ _ _ _ _ _ _ _ _ _ _ _ _ _ _ _ _ _ _ hc0 hc1 _ _
          iexact Hr
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact oleft0_C c _ _ _ _ _ _ _ _ _ _ _ _ _ _ _ _ _ _ _ _ hc0 hc1 _ _
    · have hc1 : ¬cond0_1 (grid0.coords t) := fun h => h1 ((hcond0_1 t).mp h)
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5 t hc1) (noFlush0_5 t hc1)]
      rw [accAt0_acc V c t h0]
      rw [PhiS_castSucc V c t, PhiS_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ hc0 hc1 (xb0 V c t) (wkb0 V c t) (bkb0 V c t) (wvb0 V c t) (bvb0 V c t) _).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hr Hg]
      · isplitl [HS0 Hr]
        · isplitl [HS0]
          · unfold owns; iexists _; isplitr
            swap; · iexact HS0
            ipureintro; exact sleft0_B c _ _ _ _ _ _ _ _ _ _ _ _ _ _ _ _ _ _ _ _ hc0 hc1 _ _
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant's two ends -/

theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the scoped rest back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 64 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, Hr⟩, Hg⟩
  isplitl [HS0 Hr]
  · isplitl [HS0]
    · iexists _; iexact HS0
    iexact Hr
  iexact Hg

end Cert.Kernel.Hand

end
-- ==== Proof.KB.R1Data.lean ====
/-
  Region 1: the proof data.  Each point (β, j) takes the 512 rows j·512 … of x in batch β, forms their dense layer
  Q (weights wq, bias bq) and multiplies it by the whole product block of batch β; the result is output block (β, j).
-/
import proofs.«101504_j21363167330926_1_alg».proof.Proof.Gen.Kernel.Launch
import proofs.«101504_j21363167330926_1_alg».proof.Proof.Gen.Kernel.Skeleton
import proofs.«101504_j21363167330926_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The four input blocks at their literal types: the rows of x, the whole wq and bq, and the batch's product block. -/
abbrev xb1 (c : Dev nD) (t : Fin cfg1.N) : Vec F S1x512x1024 .f32 := iblk1 V c 0 t
abbrev wqb1 (c : Dev nD) (t : Fin cfg1.N) : Vec F S1024x1024 .f32 := iblk1 V c 1 t
abbrev bqb1 (c : Dev nD) (t : Fin cfg1.N) : Vec F S1024 .f32 := iblk1 V c 2 t
abbrev kvb1 (c : Dev nD) (t : Fin cfg1.N) : Vec F S1x1024x1024 .f32 := iblk1 V c 3 t

/-- What the body stores into the output block at point t. -/
abbrev res1 (c : Dev nD) (t : Fin cfg1.N) : Vec F S1x512x1024 .f32 :=
  k1_pay1 (xb1 V c t) (wqb1 V c t) (bqb1 V c t) (kvb1 V c t)

/-- The proof data of region 1 on core c: the arrays as the region finds them; after the body each input's buffer at
    its block and the output block at the body's one store; the scoped rest and the generator register untouched;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => res1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = res1 V c t := by dsimp only [dat1]

end Cert.Kernel.Hand

end
-- ==== Proof.KB.R1Frame.lean ====
/-
  Region 1: the body and its obligation.  The body loads its four input blocks whole, computes, and stores the result
  over the whole output block (which it also loads first, a value it does not use).
-/
import proofs.«101504_j21363167330926_1_alg».proof.Proof.KB.R1Data
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz1_2 : (![0, 0] : Fin S1024x1024.rank → Nat) = fun _ => 0 := by funext a; fin_cases a <;> rfl
theorem hz1_3x : (![0, 0, 0] : Fin S1x512x1024.rank → Nat) = fun _ => 0 := by funext a; fin_cases a <;> rfl
theorem hz1_3k : (![0, 0, 0] : Fin S1x1024x1024.rank → Nat) = fun _ => 0 := by funext a; fin_cases a <;> rfl
theorem hz1_1 : (![0] : Fin S1024.rank → Nat) = fun _ => 0 := by funext a; fin_cases a <;> rfl

/-! ## The inputs' buffers hold their blocks at every point -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-! ## The body's triple -/

set_option maxHeartbeats 4000000 in
/-- The body on whole memrefs, the inputs' at contents x0 … x3 and the output's at anything, runs to the continuation
    holding the inputs' as they were and the output's at the one stored value. -/
theorem sound_kernel1 (c : Dev nD) (E : Set ℕ) (i : grid1.Coords) (arg2 : Memref sig .tc .vmem S1x512x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S1x1024x1024 .f32) (harg5 : arg5.IsWhole) (arg6 : Memref sig .tc .vmem S1x512x1024 .f32) (harg6 : arg6.IsWhole)
    (x0 : Vec F S1x512x1024 .f32) (x1 : Vec F S1024x1024 .f32) (x2 : Vec F S1024 .f32) (x3 : Vec F S1x1024x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k1_pay1 x0 x1 x2 x3)) -∗ K ⟨⟩))
      ⊢ wp frame (wpE (defs₀ (F := F)) Variants.none c none) E (cc1__e_kernel i arg2 harg2 arg3 harg3 arg4 harg4 arg5 harg5 arg6 harg6) K := by
  simp only [cc1__e_kernel_eq_skeleton]; unfold cc1__e_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg2.eq_unread hf0; obtain rfl := harg3.eq_unread hf1; obtain rfl := harg4.eq_unread hf2; obtain rfl := harg5.eq_unread hf3
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H4
  ipureintro
  rw [View.read_writes_eq_canon _ _ _ (fun y => ⟨_, List.mem_singleton_self _, View.mem_set_unit_zero hz1_3x Facts₀.inb_S1x512x1024_S1x512x1024_0_0_0 y⟩)]
  rw [View.canon_unit_zero hz1_3x]
  simp only [View.readAt_eq_ld, harg2.read_unread, harg3.read_unread, harg4.read_unread, harg5.read_unread,
    View.ld_unit_zero (S := S1024x1024) hz1_2, View.ld_unit_zero (S := S1x512x1024) hz1_3x, View.ld_unit_zero (S := S1x1024x1024) hz1_3k, View.ld_unit_zero (S := S1024) hz1_1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (xb1 V c t) (wqb1 V c t) (bqb1 V c t) (kvb1 V c t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Run.lean ====
/-
  The whole program: the first region leaves the scaled products Kᵀ·V of the four batches in an intermediate array, the
  second reads it and leaves the result.  Between the two every unscoped buffer is held at named contents: the launch
  contents, with each region's arrays overwritten by what its write-backs leave.  No argument array is an output
  window of either region, so each ends as launched; the result array ends at what the second region's write-backs
  leave, the second region having found the intermediate array at what the first region's write-backs left.
-/
import proofs.«101504_j21363167330926_1_alg».proof.Proof.KB.R0Frame
import proofs.«101504_j21363167330926_1_alg».proof.Proof.KB.R1Frame
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => (s₀ m ρ).mem ((c : Dev nD), b)
abbrev VE0 : (c : Dev nD) → (b : Ref sig .tc) → Buf (Elt F) ((c : Thread nD τ).loc b) := fun c b => W0 m ρ c b
/-- After region 0: its arrays at what its write-backs leave, every other buffer as before. -/
def W1 (c : Dev nD) : Valuation τ sig (Elt F) :=
  Pipeline.withArrays spec0 c (W0 m ρ c) fun w => (dat0 (VE0 m ρ) c).arrAt w cfg0.N
theorem W1_arr (c : Dev nD) (w : Fin cfg0.W) :
    W1 m ρ c (Proc.devRef .tc (Pipeline.arrRef spec0 w)) = (dat0 (VE0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev VE1 : (c : Dev nD) → (b : Ref sig .tc) → Buf (Elt F) ((c : Thread nD τ).loc b) := fun c b => W1 m ρ c b
theorem hF0 (c : Dev nD) (w : Fin cfg0.W) : (dat0 (VE0 m ρ) c).arrAt w cfg0.N = VE1 m ρ c (Pipeline.arrRef spec0 w) :=
  (W1_arr m ρ c w).symm
theorem hrest0 (c : Dev nD) : ∀ b, b ∉ Finset.univ.image (Pipeline.arrRef spec0) → VE1 m ρ c b = VE0 m ρ c b :=
  fun b hb => W1_of_ne m ρ c b fun w e => hb (Finset.mem_image.mpr ⟨w, Finset.mem_univ _, e⟩)

/-- After region 1: its arrays at what its write-backs leave, every other buffer as before. -/
def W2 (c : Dev nD) : Valuation τ sig (Elt F) :=
  Pipeline.withArrays spec1 c (W1 m ρ c) fun w => (dat1 (VE1 m ρ) c).arrAt w cfg1.N
theorem W2_arr (c : Dev nD) (w : Fin cfg1.W) :
    W2 m ρ c (Proc.devRef .tc (Pipeline.arrRef spec1 w)) = (dat1 (VE1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev VE2 : (c : Dev nD) → (b : Ref sig .tc) → Buf (Elt F) ((c : Thread nD τ).loc b) := fun c b => W2 m ρ c b
theorem hF1 (c : Dev nD) (w : Fin cfg1.W) : (dat1 (VE1 m ρ) c).arrAt w cfg1.N = VE2 m ρ c (Pipeline.arrRef spec1 w) :=
  (W2_arr m ρ c w).symm
theorem hrest1 (c : Dev nD) : ∀ b, b ∉ Finset.univ.image (Pipeline.arrRef spec1) → VE2 m ρ c b = VE1 m ρ c b :=
  fun b hb => W2_of_ne m ρ c b fun w e => hb (Finset.mem_image.mpr ⟨w, Finset.mem_univ _, e⟩)

/-! ### The arguments end as launched -/

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := (W2_arr m ρ c 0).trans (((dat1 (VE1 m ρ) c).arrAt_in 0 rfl _).trans (A_eq1 (VE1 m ρ) c 0))
    _ = W0 m ρ c (Proc.devRef .tc main_arg0) := (W1_arr m ρ c 0).trans (((dat0 (VE0 m ρ) c).arrAt_in 0 rfl _).trans (A_eq0 (VE0 m ρ) c 0))
    _ = m ((c : Thread nD τ).loc main_arg0) := rfl

theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := (W2_arr m ρ c 1).trans (((dat1 (VE1 m ρ) c).arrAt_in 1 rfl _).trans (A_eq1 (VE1 m ρ) c 1))
    _ = W0 m ρ c (Proc.devRef .tc main_arg1) := W1_of_ne m ρ c main_arg1 (by decide)
    _ = m ((c : Thread nD τ).loc main_arg1) := rfl

theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := (W2_arr m ρ c 2).trans (((dat1 (VE1 m ρ) c).arrAt_in 2 rfl _).trans (A_eq1 (VE1 m ρ) c 2))
    _ = W0 m ρ c (Proc.devRef .tc main_arg2) := W1_of_ne m ρ c main_arg2 (by decide)
    _ = m ((c : Thread nD τ).loc main_arg2) := rfl

theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := (W1_arr m ρ c 1).trans (((dat0 (VE0 m ρ) c).arrAt_in 1 rfl _).trans (A_eq0 (VE0 m ρ) c 1))
    _ = m ((c : Thread nD τ).loc main_arg3) := rfl

theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := (W1_arr m ρ c 2).trans (((dat0 (VE0 m ρ) c).arrAt_in 2 rfl _).trans (A_eq0 (VE0 m ρ) c 2))
    _ = m ((c : Thread nD τ).loc main_arg4) := rfl

theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := (W1_arr m ρ c 3).trans (((dat0 (VE0 m ρ) c).arrAt_in 3 rfl _).trans (A_eq0 (VE0 m ρ) c 3))
    _ = m ((c : Thread nD τ).loc main_arg5) := rfl

theorem W2_main_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := (W1_arr m ρ c 4).trans (((dat0 (VE0 m ρ) c).arrAt_in 4 rfl _).trans (A_eq0 (VE0 m ρ) c 4))
    _ = m ((c : Thread nD τ).loc main_arg6) := rfl

/-- The result array ends at what region 1's write-backs leave. -/
theorem W2_main_v1 (c : Dev nD) : W2 m ρ c (Proc.devRef .tc main_v1) = (dat1 (VE1 m ρ) c).arrAt 4 cfg1.N := W2_arr m ρ c 4

/-- Region 1 finds the intermediate array at what region 0's write-backs left, and the arguments as launched. -/
theorem VE1_main_v0 (c : Dev nD) : VE1 m ρ c main_v0 = (dat0 (VE0 m ρ) c).arrAt 5 cfg0.N := W1_arr m ρ c 5
theorem VE1_main_arg0 (c : Dev nD) : VE1 m ρ c main_arg0 = m ((c : Thread nD τ).loc main_arg0) :=
  (W1_arr m ρ c 0).trans (((dat0 (VE0 m ρ) c).arrAt_in 0 rfl _).trans (A_eq0 (VE0 m ρ) c 0))
theorem VE1_main_arg1 (c : Dev nD) : VE1 m ρ c main_arg1 = m ((c : Thread nD τ).loc main_arg1) := W1_of_ne m ρ c main_arg1 (by decide)
theorem VE1_main_arg2 (c : Dev nD) : VE1 m ρ c main_arg2 = m ((c : Thread nD τ).loc main_arg2) := W1_of_ne m ρ c main_arg2 (by decide)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VE0 m ρ) c
  | ⟨1, _⟩ => fun c => dat1 (VE1 m ρ) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The regions as segments -/

set_option backward.isDefEq.respectTransparency.types false in
/-- Region 0 over the thread state: entered from every unscoped buffer at the contents before it, left at the contents
    after it; its arrays split out of the unscoped buffers and put back at the exit contents; the generator register and
    the scoped rest into the region's invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (VE0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (VE0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (VE0 m ρ) c)
    unfold Pipeline.ΦA
    iintro ⟨Hp, -, Hr⟩
    isplitl [Hr]; · iexact Hr
    iexact Hp
  hout c := by
    refine (show (pdats m ρ 0 c).Φ (Fin.last _) ⊢ Pipeline.ΦA spec0 c from hout0 (VE0 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (VE0 m ρ c) (VE1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it; its arrays split out of the unscoped buffers and put back at the exit contents; the generator register and
    the scoped rest into the region's invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VE1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VE1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (VE1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (VE1 m ρ c) (VE2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ), .region (reg1 m ρ) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state has the result array at what region 1's write-backs leave and each argument array as launched. -/
theorem run_main : θ_run defs (onTc (τ := τ) (main (F := F))) ⟨m, fun _ => 0, ρ⟩ (fun r => ∀ c : Dev nD,
      r.2.mem ((c.tc : Thread nD τ).loc main_v1) = (dat1 (VE1 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_main_v1 m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c),
       (h c _ (mem_uc main_arg5 (by decide))).trans (W2_main_arg5 m ρ c),
       (h c _ (mem_uc main_arg6 (by decide))).trans (W2_main_arg6 m ρ c)⟩)

end Cert.Kernel.Hand

end
-- ==== Proof.KI.R0Shared.lean ====
/-
  Region 0 (the K-transpose-times-V accumulation over the sequence tiles): what its three control cases share.
  The first conditional holds where the tile coordinate is 0 (the accumulator is reset), the second where it is
  15 (the accumulator is copied to the output block).  The grid is 4 batches by 16 tiles, so a point t is of the
  first kind iff t % 16 = 0 and of the last kind iff t % 16 = 15.
-/
import proofs.«101504_j21363167330926_1_alg».proof.Proof.Gen.KernelIdeal.Launch
import proofs.«101504_j21363167330926_1_alg».proof.Proof.Gen.KernelIdeal.Skeleton
import proofs.«101504_j21363167330926_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The branch conditions over the grid -/

/-- The accumulator is reset at this point: the tile coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The accumulator is copied out at this point: the tile coordinate is 15. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from the last tile nothing is stored into the output block, and it is not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-! ## The memrefs the body is called with -/

abbrev VO0_5 : View sig .tc .vmem S1x1024x1024 .f32 := (Memref.whole cc0_stg5_0 : Memref sig .tc .vmem S1x1024x1024 .f32).view
abbrev ms0_0 (t : Fin cfg0.N) : Memref sig .tc .vmem S1x256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x1024 .f32 := win0_5.stage (cfg0.slots t 5)
abbrev hs0_5 (t : Fin cfg0.N) : (ms0_5 t).IsWhole := hstage0_5 ((cfg0.slots t 5).cast nbuf0_5)
/-- The accumulator: a whole scoped buffer of the kernel's own. -/
abbrev scM0_0 : Memref sig .tc .vmem S1024x1024 .f32 := Memref.whole cc0_scratch0
abbrev VS0_0 : View sig .tc .vmem S1024x1024 .f32 := scM0_0.view

end Cert.KernelIdeal.Hand

end
-- ==== Proof.KI.R0Data.lean ====
/-
  Region 0: the proof data.  Per batch β the 16 sequence tiles s = 0 … 15 are visited in order; the accumulator
  starts from the zero matrix at s = 0 and each tile adds (K_tileᵀ · V_tile) · 2⁻⁵ to it, K_tile and V_tile the
  dense layers of the tile's 256 rows of x; at s = 15 the accumulator is the output block of batch β.
-/
import proofs.«101504_j21363167330926_1_alg».proof.Proof.KI.R0Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The five input blocks at their literal types: the tile of x, and the whole wk, bk, wv, bv. -/
abbrev xb0 (c : Dev nD) (t : Fin cfg0.N) : Vec F S1x256x1024 .f32 := iblk0 V c 0 t
abbrev wkb0 (c : Dev nD) (t : Fin cfg0.N) : Vec F S1024x1024 .f32 := iblk0 V c 1 t
abbrev bkb0 (c : Dev nD) (t : Fin cfg0.N) : Vec F S1024 .f32 := iblk0 V c 2 t
abbrev wvb0 (c : Dev nD) (t : Fin cfg0.N) : Vec F S1024x1024 .f32 := iblk0 V c 3 t
abbrev bvb0 (c : Dev nD) (t : Fin cfg0.N) : Vec F S1024 .f32 := iblk0 V c 4 t

/-- One tile's update of the accumulator: acc + (K_tileᵀ · V_tile) · 2⁻⁵. -/
abbrev step0 (c : Dev nD) (t : Fin cfg0.N) (acc : Vec F S1024x1024 .f32) : Vec F S1024x1024 .f32 :=
  k0_pay2 (xb0 V c t) (wkb0 V c t) (wvb0 V c t) (bkb0 V c t) (bvb0 V c t) acc

/-- THE ACCUMULATION: the accumulator after point n — from the zero matrix at the first tile of a batch, else from
    what the point before left. -/
def accAt0 (c : Dev nD) : (n : ℕ) → n < cfg0.N → Vec F S1024x1024 .f32
  | 0, hn => step0 V c ⟨0, hn⟩ (k0_pay1 (F := F))
  | n + 1, hn =>
    if (n + 1) % 16 = 0 then step0 V c ⟨n + 1, hn⟩ (k0_pay1 (F := F))
    else step0 V c ⟨n + 1, hn⟩ (accAt0 c n (Nat.lt_of_succ_lt hn))

theorem accAt0_reset (c : Dev nD) (t : Fin cfg0.N) (h0 : t.val % 16 = 0) :
    accAt0 V c t.val t.isLt = step0 V c t (k0_pay1 (F := F)) := by
  obtain ⟨n, hn⟩ := t
  cases n with
  | zero => rfl
  | succ n => exact if_pos h0

theorem accAt0_acc (c : Dev nD) (t : Fin cfg0.N) (h0 : ¬t.val % 16 = 0) :
    accAt0 V c t.val t.isLt = step0 V c t (accAt0 V c (t.val - 1) (Nat.lt_of_le_of_lt (Nat.sub_le _ _) t.isLt)) := by
  obtain ⟨n, hn⟩ := t
  cases n with
  | zero => exact absurd (Nat.zero_mod _) h0
  | succ n => exact if_neg h0

/-- The region invariant before position n: before the first point every scoped buffer no window stages at anything
    and the generator register at some state; afterwards the accumulator at what the point before left. -/
def PhiS (c : Dev nD) : (n : ℕ) → n ≤ cfg0.N → sProp 𝕄
  | 0, _ => Pipeline.ΦA spec0 c
  | n + 1, hn => iprop(iprop(owns (c : Thread nD τ) scM0_0 fullShare (accAt0 V c n hn)
      ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))
      ∗ (∃ r, prngReg c r))

/-- The proof data of region 0 on core c: the arrays as the region finds them; after the body each input's buffer at
    its block and the output block at the accumulator recast to [1, 1024, 1024] (consulted only at the last tile of a
    batch, where it is written back); the invariant PhiS; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay3 (accAt0 V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = k0_pay3 (accAt0 V c t.val t.isLt) := by dsimp only [dat0]

end Cert.KernelIdeal.Hand

end
-- ==== Proof.KI.R0RunA.lean ====
/-
  Region 0, the first tile of a batch: the accumulator, at anything, is reset to the zero matrix and then overwritten
  by the tile's update of it; nothing is stored into the output block.
-/
import proofs.«101504_j21363167330926_1_alg».proof.Proof.KI.R0Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at the first tile of a batch, on whole memrefs: the inputs and the output block come back as found, the
    accumulator with the pieces LS0 written (the list the run finds: the reset, then the update over it). -/
noncomputable def kernelRun0_A (c : Dev nD) (i : grid0.Coords) (arg2 : Memref sig .tc .vmem S1x256x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S1024x1024 .f32) (harg5 : arg5.IsWhole) (arg6 : Memref sig .tc .vmem S1024 .f32) (harg6 : arg6.IsWhole) (arg7 : Memref sig .tc .vmem S1x1024x1024 .f32) (harg7 : arg7.IsWhole) (arg8 : Memref sig .tc .vmem S1024x1024 .f32) (harg8 : arg8.IsWhole) (hc0 : cond0_0 i) (hc1 : ¬cond0_1 i)
    (x0 : Vec F S1x256x1024 .f32) (x1 : Vec F S1024x1024 .f32) (x2 : Vec F S1024 .f32) (x3 : Vec F S1024x1024 .f32) (x4 : Vec F S1024 .f32) :
    { LS0 : List (View.Piece (Elt F) S1024x1024 .f32) //
      ∀ (xi5 : Vec F S1x1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__kv_kernel i arg2 harg2 arg3 harg3 arg4 harg4 arg5 harg5 arg6 harg6 arg7 harg7 arg8 harg8) K } := by
  refine ⟨?_, fun xi5 E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.KI.R0RunB.lean ====
/-
  Region 0, a middle tile (neither the first nor the last of its batch): the accumulator, found at xs0, is
  overwritten by one store; nothing is stored into the output block.
-/
import proofs.«101504_j21363167330926_1_alg».proof.Proof.KI.R0Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a middle tile, on whole memrefs: the inputs and the output block come back as found, the accumulator
    with the pieces LS0 written (the list the run finds). -/
noncomputable def kernelRun0_B (c : Dev nD) (i : grid0.Coords) (arg2 : Memref sig .tc .vmem S1x256x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S1024x1024 .f32) (harg5 : arg5.IsWhole) (arg6 : Memref sig .tc .vmem S1024 .f32) (harg6 : arg6.IsWhole) (arg7 : Memref sig .tc .vmem S1x1024x1024 .f32) (harg7 : arg7.IsWhole) (arg8 : Memref sig .tc .vmem S1024x1024 .f32) (harg8 : arg8.IsWhole) (hc0 : ¬cond0_0 i) (hc1 : ¬cond0_1 i)
    (x0 : Vec F S1x256x1024 .f32) (x1 : Vec F S1024x1024 .f32) (x2 : Vec F S1024 .f32) (x3 : Vec F S1024x1024 .f32) (x4 : Vec F S1024 .f32) (xs0 : Vec F S1024x1024 .f32) :
    { LS0 : List (View.Piece (Elt F) S1024x1024 .f32) //
      ∀ (xi5 : Vec F S1x1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__kv_kernel i arg2 harg2 arg3 harg3 arg4 harg4 arg5 harg5 arg6 harg6 arg7 harg7 arg8 harg8) K } := by
  refine ⟨?_, fun xi5 E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.KI.R0RunC.lean ====
/-
  Region 0, the last tile of a batch: the accumulator, found at xs0, is overwritten by the tile's update of it, and
  the result is copied into the output block (found at anything).
-/
import proofs.«101504_j21363167330926_1_alg».proof.Proof.KI.R0Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at the last tile of a batch, on whole memrefs: the inputs come back as found, the output block with the
    pieces L5 written and the accumulator with the pieces LS0 written (the lists the run finds). -/
noncomputable def kernelRun0_C (c : Dev nD) (i : grid0.Coords) (arg2 : Memref sig .tc .vmem S1x256x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S1024x1024 .f32) (harg5 : arg5.IsWhole) (arg6 : Memref sig .tc .vmem S1024 .f32) (harg6 : arg6.IsWhole) (arg7 : Memref sig .tc .vmem S1x1024x1024 .f32) (harg7 : arg7.IsWhole) (arg8 : Memref sig .tc .vmem S1024x1024 .f32) (harg8 : arg8.IsWhole) (hc0 : ¬cond0_0 i) (hc1 : cond0_1 i)
    (x0 : Vec F S1x256x1024 .f32) (x1 : Vec F S1024x1024 .f32) (x2 : Vec F S1024 .f32) (x3 : Vec F S1024x1024 .f32) (x4 : Vec F S1024 .f32) (xs0 : Vec F S1024x1024 .f32) :
    Σ' (L5 : List (View.Piece (Elt F) S1x1024x1024 .f32)), { LS0 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__kv_kernel i arg2 harg2 arg3 harg3 arg4 harg4 arg5 harg5 arg6 harg6 arg7 harg7 arg8 harg8) K } := by
  refine ⟨?_, ?_, fun E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Hand

end
-- ==== Proof.KI.R0Pieces.lean ====
/-
  Region 0: what each control case leaves in the accumulator and in the output block, as values.  A store through the
  whole-buffer rectangle leaves its payload whatever was there; a load of the whole buffer after such a store reads it.
  So the first tile leaves the update of the zero matrix, a middle tile the update of what it found, and the last tile
  also the output block at the updated accumulator recast to [1, 1024, 1024].
-/
import proofs.«101504_j21363167330926_1_alg».proof.Proof.KI.R0RunA
import proofs.«101504_j21363167330926_1_alg».proof.Proof.KI.R0RunB
import proofs.«101504_j21363167330926_1_alg».proof.Proof.KI.R0RunC
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin S1024x1024.rank → Nat) = fun _ => 0 := by funext a; fin_cases a <;> rfl
theorem hz3 : (![0, 0, 0] : Fin S1x256x1024.rank → Nat) = fun _ => 0 := by funext a; fin_cases a <;> rfl
theorem hz3o : (![0, 0, 0] : Fin S1x1024x1024.rank → Nat) = fun _ => 0 := by funext a; fin_cases a <;> rfl
theorem hz1 : (![0] : Fin S1024.rank → Nat) = fun _ => 0 := by funext a; fin_cases a <;> rfl

section
variable (c : Dev nD) (i : grid0.Coords) (arg2 : Memref sig .tc .vmem S1x256x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S1024x1024 .f32) (harg5 : arg5.IsWhole) (arg6 : Memref sig .tc .vmem S1024 .f32) (harg6 : arg6.IsWhole) (arg7 : Memref sig .tc .vmem S1x1024x1024 .f32) (harg7 : arg7.IsWhole) (arg8 : Memref sig .tc .vmem S1024x1024 .f32) (harg8 : arg8.IsWhole) (x0 : Vec F S1x256x1024 .f32) (x1 : Vec F S1024x1024 .f32) (x2 : Vec F S1024 .f32) (x3 : Vec F S1024x1024 .f32) (x4 : Vec F S1024 .f32)

/-! ## The first tile of a batch -/

theorem scover0_A (hc0 : cond0_0 i) (hc1 : ¬cond0_1 i) (y : S1024x1024.Idx) :
    ∃ pc ∈ (kernelRun0_A c i arg2 harg2 arg3 harg3 arg4 harg4 arg5 harg5 arg6 harg6 arg7 harg7 arg8 harg8 hc0 hc1 x0 x1 x2 x3 x4).1, y ∈ pc.1.set :=
  View.cover_of_tiledL _ S1024x1024.size (by sl_kernel_rfl) y

/-- The accumulator after the first tile: the update of the zero matrix. -/
theorem sleft0_A (hc0 : cond0_0 i) (hc1 : ¬cond0_1 i) (f : arg8.view.ty.Contents (Elt F)) :
    arg8.view.read (Elt F) (arg8.view.writes (Elt F) f (kernelRun0_A c i arg2 harg2 arg3 harg3 arg4 harg4 arg5 harg5 arg6 harg6 arg7 harg7 arg8 harg8 hc0 hc1 x0 x1 x2 x3 x4).1)
      = k0_pay2 x0 x1 x3 x2 x4 (k0_pay1 (F := F)) := by
  rw [View.read_writes_eq_canon _ _ _ (scover0_A c i arg2 harg2 arg3 harg3 arg4 harg4 arg5 harg5 arg6 harg6 arg7 harg7 arg8 harg8 x0 x1 x2 x3 x4 hc0 hc1)]
  unfold kernelRun0_A
  dsimp only
  sl_unfold_words
  rw [View.canon_cons_unit_zero (S := S1024x1024) hz2]
  simp only [View.readAt_eq_ld, harg2.read_unread, harg3.read_unread, harg4.read_unread, harg5.read_unread, harg6.read_unread, harg7.read_unread, harg8.read_unread, View.readCov_unit_zero (S := S1024x1024) _ hz2, View.ld_unit_zero (S := S1024x1024) hz2, View.ld_unit_zero (S := S1x256x1024) hz3, View.ld_unit_zero (S := S1024) hz1, View.ld_unit_zero (S := S1x1024x1024) hz3o]

/-! ## A middle tile -/

theorem scover0_B (hc0 : ¬cond0_0 i) (hc1 : ¬cond0_1 i) (xs0 : Vec F S1024x1024 .f32) (y : S1024x1024.Idx) :
    ∃ pc ∈ (kernelRun0_B c i arg2 harg2 arg3 harg3 arg4 harg4 arg5 harg5 arg6 harg6 arg7 harg7 arg8 harg8 hc0 hc1 x0 x1 x2 x3 x4 xs0).1, y ∈ pc.1.set :=
  View.cover_of_tiledL _ S1024x1024.size (by sl_kernel_rfl) y

/-- The accumulator after a middle tile: the update of what it found. -/
theorem sleft0_B (hc0 : ¬cond0_0 i) (hc1 : ¬cond0_1 i) (xs0 : Vec F S1024x1024 .f32) (f : arg8.view.ty.Contents (Elt F)) :
    arg8.view.read (Elt F) (arg8.view.writes (Elt F) f (kernelRun0_B c i arg2 harg2 arg3 harg3 arg4 harg4 arg5 harg5 arg6 harg6 arg7 harg7 arg8 harg8 hc0 hc1 x0 x1 x2 x3 x4 xs0).1)
      = k0_pay2 x0 x1 x3 x2 x4 xs0 := by
  rw [View.read_writes_eq_canon _ _ _ (scover0_B c i arg2 harg2 arg3 harg3 arg4 harg4 arg5 harg5 arg6 harg6 arg7 harg7 arg8 harg8 x0 x1 x2 x3 x4 hc0 hc1 xs0)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S1024x1024) hz2, View.ld_unit_zero (S := S1x256x1024) hz3, View.ld_unit_zero (S := S1024) hz1, View.ld_unit_zero (S := S1x1024x1024) hz3o]

/-! ## The last tile of a batch -/

theorem scover0_C (hc0 : ¬cond0_0 i) (hc1 : cond0_1 i) (xs0 : Vec F S1024x1024 .f32) (y : S1024x1024.Idx) :
    ∃ pc ∈ (kernelRun0_C c i arg2 harg2 arg3 harg3 arg4 harg4 arg5 harg5 arg6 harg6 arg7 harg7 arg8 harg8 hc0 hc1 x0 x1 x2 x3 x4 xs0).2.1, y ∈ pc.1.set :=
  View.cover_of_tiledL _ S1024x1024.size (by sl_kernel_rfl) y

theorem cover0_C (hc0 : ¬cond0_0 i) (hc1 : cond0_1 i) (xs0 : Vec F S1024x1024 .f32) (y : S1x1024x1024.Idx) :
    ∃ pc ∈ (kernelRun0_C c i arg2 harg2 arg3 harg3 arg4 harg4 arg5 harg5 arg6 harg6 arg7 harg7 arg8 harg8 hc0 hc1 x0 x1 x2 x3 x4 xs0).1, y ∈ pc.1.set :=
  View.cover_of_tiledL _ S1x1024x1024.size (by sl_kernel_rfl) y

/-- The accumulator after the last tile: the update of what it found. -/
theorem sleft0_C (hc0 : ¬cond0_0 i) (hc1 : cond0_1 i) (xs0 : Vec F S1024x1024 .f32) (f : arg8.view.ty.Contents (Elt F)) :
    arg8.view.read (Elt F) (arg8.view.writes (Elt F) f (kernelRun0_C c i arg2 harg2 arg3 harg3 arg4 harg4 arg5 harg5 arg6 harg6 arg7 harg7 arg8 harg8 hc0 hc1 x0 x1 x2 x3 x4 xs0).2.1)
      = k0_pay2 x0 x1 x3 x2 x4 xs0 := by
  rw [View.read_writes_eq_canon _ _ _ (scover0_C c i arg2 harg2 arg3 harg3 arg4 harg4 arg5 harg5 arg6 harg6 arg7 harg7 arg8 harg8 x0 x1 x2 x3 x4 hc0 hc1 xs0)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S1024x1024) hz2, View.ld_unit_zero (S := S1x256x1024) hz3, View.ld_unit_zero (S := S1024) hz1, View.ld_unit_zero (S := S1x1024x1024) hz3o]

/-- The output block after the last tile: the updated accumulator recast. -/
theorem oleft0_C (hc0 : ¬cond0_0 i) (hc1 : cond0_1 i) (xs0 : Vec F S1024x1024 .f32) (f : arg7.view.ty.Contents (Elt F)) :
    arg7.view.read (Elt F) (arg7.view.writes (Elt F) f (kernelRun0_C c i arg2 harg2 arg3 harg3 arg4 harg4 arg5 harg5 arg6 harg6 arg7 harg7 arg8 harg8 hc0 hc1 x0 x1 x2 x3 x4 xs0).1)
      = k0_pay3 (k0_pay2 x0 x1 x3 x2 x4 xs0) := by
  rw [View.read_writes_eq_canon _ _ _ (cover0_C c i arg2 harg2 arg3 harg3 arg4 harg4 arg5 harg5 arg6 harg6 arg7 harg7 arg8 harg8 x0 x1 x2 x3 x4 hc0 hc1 xs0)]
  unfold kernelRun0_C
  dsimp only
  sl_unfold_words
  rw [View.canon_unit_zero hz3o]
  simp only [View.readAt_eq_ld, harg2.read_unread, harg3.read_unread, harg4.read_unread, harg5.read_unread, harg6.read_unread, harg7.read_unread, harg8.read_unread, View.readCov_unit_zero (S := S1024x1024) _ hz2, View.ld_unit_zero (S := S1024x1024) hz2, View.ld_unit_zero (S := S1x256x1024) hz3, View.ld_unit_zero (S := S1024) hz1, View.ld_unit_zero (S := S1x1024x1024) hz3o]

end

end Cert.KernelIdeal.Hand

end
-- ==== Proof.KI.R0Frame.lean ====
/-
  Region 0: the body obligation.  At every point the five inputs' buffers hold their blocks; the point's position in
  its batch (first tile, middle tile, last tile) selects the case, whose run leaves the accumulator at the tile's update
  of what it started from (the zero matrix at a first tile) and, at a last tile, the output block at the accumulator.
-/
import proofs.«101504_j21363167330926_1_alg».proof.Proof.KI.R0Data
import proofs.«101504_j21363167330926_1_alg».proof.Proof.KI.R0Pieces

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' buffers hold their blocks at every point -/

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

/-! ## The invariant between points -/

/-- The scoped buffers of the other region, each whole at some contents. -/
abbrev others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- Before the first point: the accumulator at anything, the other region's scoped buffers, the generator register. -/
theorem PhiA0_eq (c : Dev nD) :
    (Pipeline.ΦA spec0 c : sProp 𝕄)
      = iprop(iprop((∃ d, owns (c : Thread nD τ) scM0_0 fullShare d) ∗ others0 (F := F) c) ∗ (∃ r, prngReg c r)) := by
  unfold Pipeline.ΦA; rw [scopedRest0_eq]; simp only [scM0_0, owns_whole]; try rfl

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare (accAt0 V c n hn) ∗ others0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare (accAt0 V c (n - 1) (by omega)) ∗ others0 (F := F) c) ∗ (∃ r, prngReg c r)) := by
  cases n with
  | zero => exact absurd rfl hz
  | succ n => rfl

theorem PhiS_castSucc (c : Dev nD) (t : Fin cfg0.N) :
    (dat0 V c).Φ t.castSucc = PhiS V c t.val (Nat.le_of_lt t.isLt) := by
  dsimp only [dat0]; simp only [Fin.coe_castSucc]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 8000000 in
/-- The body at any point: the case the point's position in its batch selects. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  by_cases h0 : t.val % 16 = 0
  · have h1 : ¬t.val % 16 = 15 := by omega
    have hc0 : cond0_0 (grid0.coords t) := (hcond0_0 t).mpr h0
    have hc1 : ¬cond0_1 (grid0.coords t) := fun h => h1 ((hcond0_1 t).mp h)
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [show (dat0 V c).leavesExact 2 t = owns (c : Thread nD τ) (ms0_2 t) fullShare ((dat0 V c).after 2 t) from by
      unfold Dat.leavesExact; rw [liveAt0_2 t], after0_2]
    rw [show (dat0 V c).leavesExact 3 t = owns (c : Thread nD τ) (ms0_3 t) fullShare ((dat0 V c).after 3 t) from by
      unfold Dat.leavesExact; rw [liveAt0_3 t], after0_3]
    rw [show (dat0 V c).leavesExact 4 t = owns (c : Thread nD τ) (ms0_4 t) fullShare ((dat0 V c).after 4 t) from by
      unfold Dat.leavesExact; rw [liveAt0_4 t], after0_4]
    rw [Dat.leavesExact_idle (dat0 V c) 5 t (idleAt0_5 t hc1) (noFlush0_5 t hc1)]
    rw [accAt0_reset V c t h0]
    by_cases hz : t.val = 0
    · rw [PhiS_castSucc V c t, PhiS_zero V c _ _ hz, PhiA0_eq]
      iintro ⟨⟨⟨HS0, Hr⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ hc0 hc1 (xb0 V c t) (wkb0 V c t) (bkb0 V c t) (wvb0 V c t) (bvb0 V c t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hr Hg]
      · isplitl [HS0 Hr]
        · isplitl [HS0]
          · unfold owns; iexists _; isplitr
            swap; · iexact HS0
            ipureintro; exact sleft0_A c _ _ _ _ _ _ _ _ _ _ _ _ _ _ _ _ _ _ _ _ hc0 hc1 _
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ hc0 hc1 (xb0 V c t) (wkb0 V c t) (bkb0 V c t) (wvb0 V c t) (bvb0 V c t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 Hr Hg]
      · isplitl [HS0 Hr]
        · isplitl [HS0]
          · unfold owns; iexists _; isplitr
            swap; · iexact HS0
            ipureintro; exact sleft0_A c _ _ _ _ _ _ _ _ _ _ _ _ _ _ _ _ _ _ _ _ hc0 hc1 _
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hc0 : ¬cond0_0 (grid0.coords t) := fun h => h0 ((hcond0_0 t).mp h)
    have hz : t.val ≠ 0 := fun h => h0 (by rw [h])
    by_cases h1 : t.val % 16 = 15
    · have hc1 : cond0_1 (grid0.coords t) := (hcond0_1 t).mpr h1
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t hc1], after0_5]
      rw [accAt0_acc V c t h0]
      rw [PhiS_castSucc V c t, PhiS_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ hc0 hc1 (xb0 V c t) (wkb0 V c t) (bkb0 V c t) (wvb0 V c t) (bvb0 V c t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hr Hg]
      · isplitl [HS0 Hr]
        · isplitl [HS0]
          · unfold owns; iexists _; isplitr
            swap; · iexact HS0
            ipureintro; exact sleft0_C c _ _ _ _ _ _ _ _ _ _ _ _ _ _ _ _ _ _ _ _ hc0 hc1 _ _
          iexact Hr
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact oleft0_C c _ _ _ _ _ _ _ _ _ _ _ _ _ _ _ _ _ _ _ _ hc0 hc1 _ _
    · have hc1 : ¬cond0_1 (grid0.coords t) := fun h => h1 ((hcond0_1 t).mp h)
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5 t hc1) (noFlush0_5 t hc1)]
      rw [accAt0_acc V c t h0]
      rw [PhiS_castSucc V c t, PhiS_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ hc0 hc1 (xb0 V c t) (wkb0 V c t) (bkb0 V c t) (wvb0 V c t) (bvb0 V c t) _).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hr Hg]
      · isplitl [HS0 Hr]
        · isplitl [HS0]
          · unfold owns; iexists _; isplitr
            swap; · iexact HS0
            ipureintro; exact sleft0_B c _ _ _ _ _ _ _ _ _ _ _ _ _ _ _ _ _ _ _ _ hc0 hc1 _ _
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant's two ends -/

theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the scoped rest back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 64 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, Hr⟩, Hg⟩
  isplitl [HS0 Hr]
  · isplitl [HS0]
    · iexists _; iexact HS0
    iexact Hr
  iexact Hg

end Cert.KernelIdeal.Hand

end
-- ==== Proof.KI.R1Data.lean ====
/-
  Region 1: the proof data.  Each point (β, j) takes the 512 rows j·512 … of x in batch β, forms their dense layer
  Q (weights wq, bias bq) and multiplies it by the whole product block of batch β; the result is output block (β, j).
-/
import proofs.«101504_j21363167330926_1_alg».proof.Proof.Gen.KernelIdeal.Launch
import proofs.«101504_j21363167330926_1_alg».proof.Proof.Gen.KernelIdeal.Skeleton
import proofs.«101504_j21363167330926_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The four input blocks at their literal types: the rows of x, the whole wq and bq, and the batch's product block. -/
abbrev xb1 (c : Dev nD) (t : Fin cfg1.N) : Vec F S1x512x1024 .f32 := iblk1 V c 0 t
abbrev wqb1 (c : Dev nD) (t : Fin cfg1.N) : Vec F S1024x1024 .f32 := iblk1 V c 1 t
abbrev bqb1 (c : Dev nD) (t : Fin cfg1.N) : Vec F S1024 .f32 := iblk1 V c 2 t
abbrev kvb1 (c : Dev nD) (t : Fin cfg1.N) : Vec F S1x1024x1024 .f32 := iblk1 V c 3 t

/-- What the body stores into the output block at point t. -/
abbrev res1 (c : Dev nD) (t : Fin cfg1.N) : Vec F S1x512x1024 .f32 :=
  k1_pay1 (xb1 V c t) (wqb1 V c t) (bqb1 V c t) (kvb1 V c t)

/-- The proof data of region 1 on core c: the arrays as the region finds them; after the body each input's buffer at
    its block and the output block at the body's one store; the scoped rest and the generator register untouched;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => res1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = res1 V c t := by dsimp only [dat1]

end Cert.KernelIdeal.Hand

end
-- ==== Proof.KI.R1Frame.lean ====
/-
  Region 1: the body and its obligation.  The body loads its four input blocks whole, computes, and stores the result
  over the whole output block (which it also loads first, a value it does not use).
-/
import proofs.«101504_j21363167330926_1_alg».proof.Proof.KI.R1Data
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz1_2 : (![0, 0] : Fin S1024x1024.rank → Nat) = fun _ => 0 := by funext a; fin_cases a <;> rfl
theorem hz1_3x : (![0, 0, 0] : Fin S1x512x1024.rank → Nat) = fun _ => 0 := by funext a; fin_cases a <;> rfl
theorem hz1_3k : (![0, 0, 0] : Fin S1x1024x1024.rank → Nat) = fun _ => 0 := by funext a; fin_cases a <;> rfl
theorem hz1_1 : (![0] : Fin S1024.rank → Nat) = fun _ => 0 := by funext a; fin_cases a <;> rfl

/-! ## The inputs' buffers hold their blocks at every point -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-! ## The body's triple -/

set_option maxHeartbeats 4000000 in
/-- The body on whole memrefs, the inputs' at contents x0 … x3 and the output's at anything, runs to the continuation
    holding the inputs' as they were and the output's at the one stored value. -/
theorem sound_kernel1 (c : Dev nD) (E : Set ℕ) (i : grid1.Coords) (arg2 : Memref sig .tc .vmem S1x512x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S1x1024x1024 .f32) (harg5 : arg5.IsWhole) (arg6 : Memref sig .tc .vmem S1x512x1024 .f32) (harg6 : arg6.IsWhole)
    (x0 : Vec F S1x512x1024 .f32) (x1 : Vec F S1024x1024 .f32) (x2 : Vec F S1024 .f32) (x3 : Vec F S1x1024x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k1_pay1 x0 x1 x2 x3)) -∗ K ⟨⟩))
      ⊢ wp frame (wpE (defs₀ (F := F)) Variants.none c none) E (cc1__e_kernel i arg2 harg2 arg3 harg3 arg4 harg4 arg5 harg5 arg6 harg6) K := by
  simp only [cc1__e_kernel_eq_skeleton]; unfold cc1__e_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg2.eq_unread hf0; obtain rfl := harg3.eq_unread hf1; obtain rfl := harg4.eq_unread hf2; obtain rfl := harg5.eq_unread hf3
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H4
  ipureintro
  rw [View.read_writes_eq_canon _ _ _ (fun y => ⟨_, List.mem_singleton_self _, View.mem_set_unit_zero hz1_3x Facts₀.inb_S1x512x1024_S1x512x1024_0_0_0 y⟩)]
  rw [View.canon_unit_zero hz1_3x]
  simp only [View.readAt_eq_ld, harg2.read_unread, harg3.read_unread, harg4.read_unread, harg5.read_unread,
    View.ld_unit_zero (S := S1024x1024) hz1_2, View.ld_unit_zero (S := S1x512x1024) hz1_3x, View.ld_unit_zero (S := S1x1024x1024) hz1_3k, View.ld_unit_zero (S := S1024) hz1_1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (xb1 V c t) (wqb1 V c t) (bqb1 V c t) (kvb1 V c t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The whole program: the first region leaves the scaled products Kᵀ·V of the four batches in an intermediate array, the
  second reads it and leaves the result.  Between the two every unscoped buffer is held at named contents: the launch
  contents, with each region's arrays overwritten by what its write-backs leave.  No argument array is an output
  window of either region, so each ends as launched; the result array ends at what the second region's write-backs
  leave, the second region having found the intermediate array at what the first region's write-backs left.
-/
import proofs.«101504_j21363167330926_1_alg».proof.Proof.KI.R0Frame
import proofs.«101504_j21363167330926_1_alg».proof.Proof.KI.R1Frame
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => (s₀ m ρ).mem ((c : Dev nD), b)
abbrev VE0 : (c : Dev nD) → (b : Ref sig .tc) → Buf (Elt F) ((c : Thread nD τ).loc b) := fun c b => W0 m ρ c b
/-- After region 0: its arrays at what its write-backs leave, every other buffer as before. -/
def W1 (c : Dev nD) : Valuation τ sig (Elt F) :=
  Pipeline.withArrays spec0 c (W0 m ρ c) fun w => (dat0 (VE0 m ρ) c).arrAt w cfg0.N
theorem W1_arr (c : Dev nD) (w : Fin cfg0.W) :
    W1 m ρ c (Proc.devRef .tc (Pipeline.arrRef spec0 w)) = (dat0 (VE0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev VE1 : (c : Dev nD) → (b : Ref sig .tc) → Buf (Elt F) ((c : Thread nD τ).loc b) := fun c b => W1 m ρ c b
theorem hF0 (c : Dev nD) (w : Fin cfg0.W) : (dat0 (VE0 m ρ) c).arrAt w cfg0.N = VE1 m ρ c (Pipeline.arrRef spec0 w) :=
  (W1_arr m ρ c w).symm
theorem hrest0 (c : Dev nD) : ∀ b, b ∉ Finset.univ.image (Pipeline.arrRef spec0) → VE1 m ρ c b = VE0 m ρ c b :=
  fun b hb => W1_of_ne m ρ c b fun w e => hb (Finset.mem_image.mpr ⟨w, Finset.mem_univ _, e⟩)

/-- After region 1: its arrays at what its write-backs leave, every other buffer as before. -/
def W2 (c : Dev nD) : Valuation τ sig (Elt F) :=
  Pipeline.withArrays spec1 c (W1 m ρ c) fun w => (dat1 (VE1 m ρ) c).arrAt w cfg1.N
theorem W2_arr (c : Dev nD) (w : Fin cfg1.W) :
    W2 m ρ c (Proc.devRef .tc (Pipeline.arrRef spec1 w)) = (dat1 (VE1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev VE2 : (c : Dev nD) → (b : Ref sig .tc) → Buf (Elt F) ((c : Thread nD τ).loc b) := fun c b => W2 m ρ c b
theorem hF1 (c : Dev nD) (w : Fin cfg1.W) : (dat1 (VE1 m ρ) c).arrAt w cfg1.N = VE2 m ρ c (Pipeline.arrRef spec1 w) :=
  (W2_arr m ρ c w).symm
theorem hrest1 (c : Dev nD) : ∀ b, b ∉ Finset.univ.image (Pipeline.arrRef spec1) → VE2 m ρ c b = VE1 m ρ c b :=
  fun b hb => W2_of_ne m ρ c b fun w e => hb (Finset.mem_image.mpr ⟨w, Finset.mem_univ _, e⟩)

/-! ### The arguments end as launched -/

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := (W2_arr m ρ c 0).trans (((dat1 (VE1 m ρ) c).arrAt_in 0 rfl _).trans (A_eq1 (VE1 m ρ) c 0))
    _ = W0 m ρ c (Proc.devRef .tc main_arg0) := (W1_arr m ρ c 0).trans (((dat0 (VE0 m ρ) c).arrAt_in 0 rfl _).trans (A_eq0 (VE0 m ρ) c 0))
    _ = m ((c : Thread nD τ).loc main_arg0) := rfl

theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := (W2_arr m ρ c 1).trans (((dat1 (VE1 m ρ) c).arrAt_in 1 rfl _).trans (A_eq1 (VE1 m ρ) c 1))
    _ = W0 m ρ c (Proc.devRef .tc main_arg1) := W1_of_ne m ρ c main_arg1 (by decide)
    _ = m ((c : Thread nD τ).loc main_arg1) := rfl

theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := (W2_arr m ρ c 2).trans (((dat1 (VE1 m ρ) c).arrAt_in 2 rfl _).trans (A_eq1 (VE1 m ρ) c 2))
    _ = W0 m ρ c (Proc.devRef .tc main_arg2) := W1_of_ne m ρ c main_arg2 (by decide)
    _ = m ((c : Thread nD τ).loc main_arg2) := rfl

theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := (W1_arr m ρ c 1).trans (((dat0 (VE0 m ρ) c).arrAt_in 1 rfl _).trans (A_eq0 (VE0 m ρ) c 1))
    _ = m ((c : Thread nD τ).loc main_arg3) := rfl

theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := (W1_arr m ρ c 2).trans (((dat0 (VE0 m ρ) c).arrAt_in 2 rfl _).trans (A_eq0 (VE0 m ρ) c 2))
    _ = m ((c : Thread nD τ).loc main_arg4) := rfl

theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := (W1_arr m ρ c 3).trans (((dat0 (VE0 m ρ) c).arrAt_in 3 rfl _).trans (A_eq0 (VE0 m ρ) c 3))
    _ = m ((c : Thread nD τ).loc main_arg5) := rfl

theorem W2_main_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := (W1_arr m ρ c 4).trans (((dat0 (VE0 m ρ) c).arrAt_in 4 rfl _).trans (A_eq0 (VE0 m ρ) c 4))
    _ = m ((c : Thread nD τ).loc main_arg6) := rfl

/-- The result array ends at what region 1's write-backs leave. -/
theorem W2_main_v1 (c : Dev nD) : W2 m ρ c (Proc.devRef .tc main_v1) = (dat1 (VE1 m ρ) c).arrAt 4 cfg1.N := W2_arr m ρ c 4

/-- Region 1 finds the intermediate array at what region 0's write-backs left, and the arguments as launched. -/
theorem VE1_main_v0 (c : Dev nD) : VE1 m ρ c main_v0 = (dat0 (VE0 m ρ) c).arrAt 5 cfg0.N := W1_arr m ρ c 5
theorem VE1_main_arg0 (c : Dev nD) : VE1 m ρ c main_arg0 = m ((c : Thread nD τ).loc main_arg0) :=
  (W1_arr m ρ c 0).trans (((dat0 (VE0 m ρ) c).arrAt_in 0 rfl _).trans (A_eq0 (VE0 m ρ) c 0))
theorem VE1_main_arg1 (c : Dev nD) : VE1 m ρ c main_arg1 = m ((c : Thread nD τ).loc main_arg1) := W1_of_ne m ρ c main_arg1 (by decide)
theorem VE1_main_arg2 (c : Dev nD) : VE1 m ρ c main_arg2 = m ((c : Thread nD τ).loc main_arg2) := W1_of_ne m ρ c main_arg2 (by decide)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VE0 m ρ) c
  | ⟨1, _⟩ => fun c => dat1 (VE1 m ρ) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The regions as segments -/

set_option backward.isDefEq.respectTransparency.types false in
/-- Region 0 over the thread state: entered from every unscoped buffer at the contents before it, left at the contents
    after it; its arrays split out of the unscoped buffers and put back at the exit contents; the generator register and
    the scoped rest into the region's invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (VE0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (VE0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (VE0 m ρ) c)
    unfold Pipeline.ΦA
    iintro ⟨Hp, -, Hr⟩
    isplitl [Hr]; · iexact Hr
    iexact Hp
  hout c := by
    refine (show (pdats m ρ 0 c).Φ (Fin.last _) ⊢ Pipeline.ΦA spec0 c from hout0 (VE0 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (VE0 m ρ c) (VE1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it; its arrays split out of the unscoped buffers and put back at the exit contents; the generator register and
    the scoped rest into the region's invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VE1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VE1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (VE1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (VE1 m ρ c) (VE2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ), .region (reg1 m ρ) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state has the result array at what region 1's write-backs leave and each argument array as launched. -/
theorem run_main : θ_run defs (onTc (τ := τ) (main (F := F))) ⟨m, fun _ => 0, ρ⟩ (fun r => ∀ c : Dev nD,
      r.2.mem ((c.tc : Thread nD τ).loc main_v1) = (dat1 (VE1 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_main_v1 m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c),
       (h c _ (mem_uc main_arg5 (by decide))).trans (W2_main_arg5 m ρ c),
       (h c _ (mem_uc main_arg6 (by decide))).trans (W2_main_arg6 m ρ c)⟩)

end Cert.KernelIdeal.Hand

end
-- ==== Proof.Spec.lean ====
/-
  Linear attention without a softmax, as ONE function of the argument arrays over the extended reals.
  With  lin x w b (β, s, e) = (∑ₖ x[β,s,k] · w[e,k]) + b[e]   (a dense layer, the weight transposed),
        kv (β, d, e)        = (∑ₛ K[β,s,d] · V[β,s,e]) · 2⁻⁵    (K, V the layers of wk, bk and wv, bv),
        out (β, s, e)       = ∑_d Q[β,s,d] · kv[β,d,e]           (Q the layer of wq, bq),
  the result is `G = outArr x wq bq (kvArr x wk bk wv bv)`.  The scale 2⁻⁵ is 1/√1024.
-/
import Idealize.ShloMosaic.PureOps.Ideal
import Idealize.ShloMosaic.Lib.ValueIdx

noncomputable section

open scoped BigOperators

namespace Cert.Attn

open Idealize.ShloMosaic Idealize.ShloMosaic.ValueIdx

/-- The shapes of the activations [4, 4096, 1024], a weight [1024, 1024], a bias [1024] and the
    per-batch product [4, 1024, 1024]. -/
abbrev SX : Shape := ⟨3, ![4, 4096, 1024]⟩
abbrev SW : Shape := ⟨2, ![1024, 1024]⟩
abbrev SB : Shape := ⟨1, ![1024]⟩
abbrev SKV : Shape := ⟨3, ![4, 1024, 1024]⟩

/-- The scale 1/√1024 = 1/32 = 2⁻⁵, a real number. -/
def scale : EReal := ((1 / 32 : ℝ) : EReal)

/-- One entry of a dense layer x·wᵀ + b. -/
def lin (x : SX.Idx → EReal) (w : SW.Idx → EReal) (b : SB.Idx → EReal) (β : Fin 4) (s : Fin 4096) (e : Fin 1024) : EReal :=
  (∑ k : Fin 1024, x (ix3 β s k) * w (ix2 e k)) + b (ix1 e)

/-- One entry of the scaled product Kᵀ·V of batch β. -/
def kv (x : SX.Idx → EReal) (wk : SW.Idx → EReal) (bk : SB.Idx → EReal) (wv : SW.Idx → EReal) (bv : SB.Idx → EReal)
    (β : Fin 4) (d e : Fin 1024) : EReal :=
  (∑ s : Fin 4096, lin x wk bk β s d * lin x wv bv β s e) * scale

/-- The scaled products of all batches as an array. -/
def kvArr (x : SX.Idx → EReal) (wk : SW.Idx → EReal) (bk : SB.Idx → EReal) (wv : SW.Idx → EReal) (bv : SB.Idx → EReal) :
    SKV.Idx → EReal :=
  fun j => kv x wk bk wv bv (j 0) (j 1) (j 2)

/-- One entry of Q·KV for any array KV of the per-batch products' shape. -/
def out (x : SX.Idx → EReal) (wq : SW.Idx → EReal) (bq : SB.Idx → EReal) (KV : SKV.Idx → EReal)
    (β : Fin 4) (s : Fin 4096) (e : Fin 1024) : EReal :=
  ∑ d : Fin 1024, lin x wq bq β s d * KV (ix3 β d e)

/-- Q·KV as an array. -/
def outArr (x : SX.Idx → EReal) (wq : SW.Idx → EReal) (bq : SB.Idx → EReal) (KV : SKV.Idx → EReal) : SX.Idx → EReal :=
  fun i => out x wq bq KV (i 0) (i 1) (i 2)

/-- The whole result. -/
def G (x : SX.Idx → EReal) (wq : SW.Idx → EReal) (bq : SB.Idx → EReal) (wk : SW.Idx → EReal) (bk : SB.Idx → EReal)
    (wv : SW.Idx → EReal) (bv : SB.Idx → EReal) : SX.Idx → EReal :=
  outArr x wq bq (kvArr x wk bk wv bv)

end Cert.Attn

end
-- ==== Proof.LibMatmulRowRow.lean ====
/-
  A rows-by-rows product read at an entry (a general lemma: nothing here depends on a program).

  For a left factor l of shape [A, K] and a right factor r of shape [C, K], the dimension numbers "contract axis 1 of l
  with axis 1 of r, no batch axis" give a result of shape [A, C].  Into a zero accumulator, over the extended reals,
  its entry (p, q) is the sum over k < K of l (p, k) · r (q, k): the product of l with the transpose of r, the
  transpose never formed.  Any sizes A, K, C.  A printed record with lists [1], [1], [0], [0], [], [] over such shapes
  is `DotDims.transposedRhs A K C` by `rfl`.
-/
import Idealize.ShloMosaic.Lib.ValueIdx
import Idealize.ShloMosaic.PureOps.Ideal.Laws

noncomputable section

namespace Cert.Lib.MatmulRowRow

open Idealize.ShloMosaic Idealize.ShloMosaic.ValueIdx

variable {A K C : Nat}

/-- The left factor is read at the result's row … -/
theorem lhs0 (j : (⟨2, ![A, C]⟩ : Shape).Idx) (q : (DotDims.transposedRhs A K C).contr.Idx) :
    ((DotDims.transposedRhs A K C).lhsIdx j q 0).val = (j 0).val := by
  unfold DotDims.lhsIdx
  rw [dif_neg (show ¬(0 : Fin 2) ∈ (DotDims.transposedRhs A K C).lhsBatch from List.not_mem_nil),
    dif_pos (show (0 : Fin 2) ∈ (DotDims.transposedRhs A K C).lhsNonContracting from List.mem_singleton.mpr rfl)]
  rfl

/-- … and at the contraction coordinate as its column. -/
theorem lhs1 (j : (⟨2, ![A, C]⟩ : Shape).Idx) (q : (DotDims.transposedRhs A K C).contr.Idx) :
    ((DotDims.transposedRhs A K C).lhsIdx j q 1).val = (q ⟨0, Nat.one_pos⟩).val :=
  (DotDims.transposedRhs A K C).lhsIdx_val_of_single rfl j q

/-- The right factor is read at the row that is the result's column … -/
theorem rhs0 (j : (⟨2, ![A, C]⟩ : Shape).Idx) (q : (DotDims.transposedRhs A K C).contr.Idx) :
    ((DotDims.transposedRhs A K C).rhsIdx j q 0).val = (j 1).val := by
  unfold DotDims.rhsIdx
  rw [dif_neg (show ¬(0 : Fin 2) ∈ (DotDims.transposedRhs A K C).rhsBatch from List.not_mem_nil),
    dif_pos (show (0 : Fin 2) ∈ (DotDims.transposedRhs A K C).rhsNonContracting from List.mem_singleton.mpr rfl)]
  rfl

/-- … and at the contraction coordinate as its column. -/
theorem rhs1 (j : (⟨2, ![A, C]⟩ : Shape).Idx) (q : (DotDims.transposedRhs A K C).contr.Idx) :
    ((DotDims.transposedRhs A K C).rhsIdx j q 1).val = (q ⟨0, Nat.one_pos⟩).val :=
  (DotDims.transposedRhs A K C).rhsIdx_val_of_single rfl j q

/-- The contraction at entry (p, q) is the sum over the K products l (p, k) · r (q, k). -/
theorem contr_sum (l : (⟨2, ![A, K]⟩ : Shape).Idx → EReal) (r : (⟨2, ![C, K]⟩ : Shape).Idx → EReal)
    (p : Fin A) (q : Fin C) :
    ∑ s : (DotDims.transposedRhs A K C).contr.Idx,
        l ((DotDims.transposedRhs A K C).lhsIdx (ix2 p q) s) * r ((DotDims.transposedRhs A K C).rhsIdx (ix2 p q) s)
      = ∑ k : Fin K, l (ix2 p k) * r (ix2 q k) := by
  rw [← Equiv.sum_comp (contrEquiv1 (DotDims.transposedRhs A K C) K rfl rfl).symm]
  refine Finset.sum_congr rfl fun k _ => ?_
  have hk := contrEquiv1_symm_val (DotDims.transposedRhs A K C) K rfl rfl k
  have el : (DotDims.transposedRhs A K C).lhsIdx (ix2 p q)
      ((contrEquiv1 (DotDims.transposedRhs A K C) K rfl rfl).symm k) = ix2 p k := funext fun a => Fin.ext (by
    match a with
    | ⟨0, _⟩ => exact lhs0 _ _
    | ⟨1, _⟩ => exact (lhs1 _ _).trans hk)
  have er : (DotDims.transposedRhs A K C).rhsIdx (ix2 p q)
      ((contrEquiv1 (DotDims.transposedRhs A K C) K rfl rfl).symm k) = ix2 q k := funext fun a => Fin.ext (by
    match a with
    | ⟨0, _⟩ => exact rhs0 _ _
    | ⟨1, _⟩ => exact (rhs1 _ _).trans hk)
  rw [el, er]

/-- Entry (p, q) of the product into a zero accumulator. -/
theorem matmul_zero_apply {φ₁ φ₂ : FTy} (prec : Option ContractPrecision)
    (l : FVec Ideal ⟨2, ![A, K]⟩ φ₁) (r : FVec Ideal ⟨2, ![C, K]⟩ φ₂) (p : Fin A) (q : Fin C) :
    FloatOps.matmul (DotDims.transposedRhs A K C) prec l r (constant ⟨2, ![A, C]⟩ .f32 0x00000000#32) (ix2 p q)
      = ∑ k : Fin K, (l (ix2 p k) : EReal) * (r (ix2 q k) : EReal) := by
  rw [Ideal.matmul_constant_zero_apply]
  exact contr_sum l r p q

end Cert.Lib.MatmulRowRow

end
-- ==== Proof.LibMatmul.lean ====
/-
  A product of two matrices, read at an entry (a general lemma: nothing here depends on a program).

  Two layouts of a contraction over one axis, without batch axes. In the first the left factor is [A, K] and is
  contracted on its axis 1, the right factor is [K, B] and is contracted on its axis 0: entry (i, j) of the product
  is the sum over k of l[i, k] * r[k, j]. In the second the left factor is [K, A] and is contracted on its axis 0
  (the product with the transpose of the left factor), the right factor is again [K, B] contracted on its axis 0:
  entry (i, j) is the sum over k of l[k, i] * r[k, j]. Over the extended reals the host's product is exactly that
  sum, and the matrix unit's is the accumulator's entry plus that sum.
-/
import Idealize.ShloMosaic.Lib.ValueIdx
import Idealize.ShloMosaic.PureOps.Ideal.Laws

noncomputable section

namespace Cert.Lib.MatMul

open Idealize.ShloMosaic Idealize.ShloMosaic.ValueIdx

/-! ## Left factor [A, K] on its axis 1, right factor [K, B] on its axis 0 -/

section Plain

/-- The dimension numbers of [A, K] times [K, B]: the left factor contracted on axis 1, the right on axis 0, no
    batch axes. -/
abbrev mmD (A K B : Nat) (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

variable {A K B : Nat} (wf : DotDims.WF ⟨2, ![A, K]⟩ ⟨2, ![K, B]⟩ ⟨2, ![A, B]⟩ [1] [0] [0] [1] [] [])

/-- The left factor's row is the result's row. -/
theorem mm_lhs0 (j : (⟨2, ![A, B]⟩ : Shape).Idx) (q : (mmD A K B wf).contr.Idx) :
    ((mmD A K B wf).lhsIdx j q 0).val = (j 0).val := by
  unfold DotDims.lhsIdx
  rw [dif_neg (show ¬(0 : Fin 2) ∈ (mmD A K B wf).lhsBatch from List.not_mem_nil),
    dif_pos (show (0 : Fin 2) ∈ (mmD A K B wf).lhsNonContracting from List.mem_singleton.mpr rfl)]
  rfl

/-- The left factor's column is the contraction position. -/
theorem mm_lhs1 (j : (⟨2, ![A, B]⟩ : Shape).Idx) (q : (mmD A K B wf).contr.Idx) :
    ((mmD A K B wf).lhsIdx j q 1).val = (q ⟨0, Nat.one_pos⟩).val :=
  (mmD A K B wf).lhsIdx_val_of_single rfl j q

/-- The right factor's row is the contraction position. -/
theorem mm_rhs0 (j : (⟨2, ![A, B]⟩ : Shape).Idx) (q : (mmD A K B wf).contr.Idx) :
    ((mmD A K B wf).rhsIdx j q 0).val = (q ⟨0, Nat.one_pos⟩).val :=
  (mmD A K B wf).rhsIdx_val_of_single rfl j q

/-- The right factor's column is the result's column. -/
theorem mm_rhs1 (j : (⟨2, ![A, B]⟩ : Shape).Idx) (q : (mmD A K B wf).contr.Idx) :
    ((mmD A K B wf).rhsIdx j q 1).val = (j 1).val := by
  unfold DotDims.rhsIdx
  rw [dif_neg (show ¬(1 : Fin 2) ∈ (mmD A K B wf).rhsBatch from List.not_mem_nil),
    dif_pos (show (1 : Fin 2) ∈ (mmD A K B wf).rhsNonContracting from List.mem_singleton.mpr rfl)]
  rfl

/-- The contraction's sum, re-indexed by the one coordinate k: the sum over k of l[i, k] * r[k, j]. -/
theorem mm_sum {φ₁ φ₂ : FTy} (l : FVec Ideal ⟨2, ![A, K]⟩ φ₁) (r : FVec Ideal ⟨2, ![K, B]⟩ φ₂) (i : Fin A) (j : Fin B) :
    ∑ q : (mmD A K B wf).contr.Idx, l ((mmD A K B wf).lhsIdx (ix2 i j) q) * r ((mmD A K B wf).rhsIdx (ix2 i j) q)
      = ∑ k : Fin K, l (ix2 i k) * r (ix2 k j) := by
  rw [← Equiv.sum_comp (contrEquiv1 (mmD A K B wf) K rfl rfl).symm]
  refine Finset.sum_congr rfl fun k _ => ?_
  have hk := contrEquiv1_symm_val (mmD A K B wf) K rfl rfl k
  have el : (mmD A K B wf).lhsIdx (ix2 i j) ((contrEquiv1 (mmD A K B wf) K rfl rfl).symm k) = ix2 i k :=
    funext fun a => Fin.ext (by
      match a with
      | ⟨0, _⟩ => exact mm_lhs0 wf _ _
      | ⟨1, _⟩ => exact (mm_lhs1 wf _ _).trans hk)
  have er : (mmD A K B wf).rhsIdx (ix2 i j) ((contrEquiv1 (mmD A K B wf) K rfl rfl).symm k) = ix2 k j :=
    funext fun a => Fin.ext (by
      match a with
      | ⟨0, _⟩ => exact (mm_rhs0 wf _ _).trans hk
      | ⟨1, _⟩ => exact mm_rhs1 wf _ _)
  rw [el, er]

/-- The host's product at entry (i, j): the sum over k of l[i, k] * r[k, j]. -/
theorem dot_apply {φ₁ φ₂ : FTy} (prec : Option ContractPrecision) (l : FVec Ideal ⟨2, ![A, K]⟩ φ₁)
    (r : FVec Ideal ⟨2, ![K, B]⟩ φ₂) (i : Fin A) (j : Fin B) :
    Host.dotGeneral (F := Ideal) (mmD A K B wf) prec l r (ix2 i j) = ∑ k : Fin K, l (ix2 i k) * r (ix2 k j) := by
  simp only [Host.dotGeneral]
  rw [Ideal.dotGeneral_apply]
  exact mm_sum wf l r i j

/-- The matrix unit's product at entry (i, j): the accumulator there plus the sum over k of l[i, k] * r[k, j]. -/
theorem matmul_apply {φ₁ φ₂ : FTy} (prec : Option ContractPrecision) (l : FVec Ideal ⟨2, ![A, K]⟩ φ₁)
    (r : FVec Ideal ⟨2, ![K, B]⟩ φ₂) (acc : FVec Ideal ⟨2, ![A, B]⟩ .f32) (i : Fin A) (j : Fin B) :
    matmul (F := Ideal) (mmD A K B wf) prec l r acc (ix2 i j)
      = acc (ix2 i j) + ∑ k : Fin K, l (ix2 i k) * r (ix2 k j) := by
  simp only [matmul]
  rw [Ideal.matmul_apply]
  exact congrArg (acc (ix2 i j) + ·) (mm_sum wf l r i j)

end Plain

/-! ## Left factor [K, A] on its axis 0, right factor [K, B] on its axis 0 -/

section LeftTransposed

/-- The dimension numbers of the transpose of [K, A] times [K, B]: both factors contracted on axis 0, no batch
    axes. -/
abbrev mmTD (K A B : Nat) (wf : DotDims.WF ⟨2, ![K, A]⟩ ⟨2, ![K, B]⟩ ⟨2, ![A, B]⟩ [0] [0] [1] [1] [] []) :
    DotDims ⟨2, ![K, A]⟩ ⟨2, ![K, B]⟩ ⟨2, ![A, B]⟩ where
  lhsContracting := [0]
  rhsContracting := [0]
  lhsNonContracting := [1]
  rhsNonContracting := [1]
  lhsBatch := []
  rhsBatch := []
  wf := wf

variable {K A B : Nat} (wf : DotDims.WF ⟨2, ![K, A]⟩ ⟨2, ![K, B]⟩ ⟨2, ![A, B]⟩ [0] [0] [1] [1] [] [])

/-- The left factor's row is the contraction position. -/
theorem mmT_lhs0 (j : (⟨2, ![A, B]⟩ : Shape).Idx) (q : (mmTD K A B wf).contr.Idx) :
    ((mmTD K A B wf).lhsIdx j q 0).val = (q ⟨0, Nat.one_pos⟩).val :=
  (mmTD K A B wf).lhsIdx_val_of_single rfl j q

/-- The left factor's column is the result's row. -/
theorem mmT_lhs1 (j : (⟨2, ![A, B]⟩ : Shape).Idx) (q : (mmTD K A B wf).contr.Idx) :
    ((mmTD K A B wf).lhsIdx j q 1).val = (j 0).val := by
  unfold DotDims.lhsIdx
  rw [dif_neg (show ¬(1 : Fin 2) ∈ (mmTD K A B wf).lhsBatch from List.not_mem_nil),
    dif_pos (show (1 : Fin 2) ∈ (mmTD K A B wf).lhsNonContracting from List.mem_singleton.mpr rfl)]
  rfl

/-- The right factor's row is the contraction position. -/
theorem mmT_rhs0 (j : (⟨2, ![A, B]⟩ : Shape).Idx) (q : (mmTD K A B wf).contr.Idx) :
    ((mmTD K A B wf).rhsIdx j q 0).val = (q ⟨0, Nat.one_pos⟩).val :=
  (mmTD K A B wf).rhsIdx_val_of_single rfl j q

/-- The right factor's column is the result's column. -/
theorem mmT_rhs1 (j : (⟨2, ![A, B]⟩ : Shape).Idx) (q : (mmTD K A B wf).contr.Idx) :
    ((mmTD K A B wf).rhsIdx j q 1).val = (j 1).val := by
  unfold DotDims.rhsIdx
  rw [dif_neg (show ¬(1 : Fin 2) ∈ (mmTD K A B wf).rhsBatch from List.not_mem_nil),
    dif_pos (show (1 : Fin 2) ∈ (mmTD K A B wf).rhsNonContracting from List.mem_singleton.mpr rfl)]
  rfl

/-- The contraction's sum, re-indexed by the one coordinate k: the sum over k of l[k, i] * r[k, j]. -/
theorem mmT_sum {φ₁ φ₂ : FTy} (l : FVec Ideal ⟨2, ![K, A]⟩ φ₁) (r : FVec Ideal ⟨2, ![K, B]⟩ φ₂) (i : Fin A) (j : Fin B) :
    ∑ q : (mmTD K A B wf).contr.Idx, l ((mmTD K A B wf).lhsIdx (ix2 i j) q) * r ((mmTD K A B wf).rhsIdx (ix2 i j) q)
      = ∑ k : Fin K, l (ix2 k i) * r (ix2 k j) := by
  rw [← Equiv.sum_comp (contrEquiv1 (mmTD K A B wf) K rfl rfl).symm]
  refine Finset.sum_congr rfl fun k _ => ?_
  have hk := contrEquiv1_symm_val (mmTD K A B wf) K rfl rfl k
  have el : (mmTD K A B wf).lhsIdx (ix2 i j) ((contrEquiv1 (mmTD K A B wf) K rfl rfl).symm k) = ix2 k i :=
    funext fun a => Fin.ext (by
      match a with
      | ⟨0, _⟩ => exact (mmT_lhs0 wf _ _).trans hk
      | ⟨1, _⟩ => exact mmT_lhs1 wf _ _)
  have er : (mmTD K A B wf).rhsIdx (ix2 i j) ((contrEquiv1 (mmTD K A B wf) K rfl rfl).symm k) = ix2 k j :=
    funext fun a => Fin.ext (by
      match a with
      | ⟨0, _⟩ => exact (mmT_rhs0 wf _ _).trans hk
      | ⟨1, _⟩ => exact mmT_rhs1 wf _ _)
  rw [el, er]

/-- The host's product at entry (i, j): the sum over k of l[k, i] * r[k, j]. -/
theorem dotT_apply {φ₁ φ₂ : FTy} (prec : Option ContractPrecision) (l : FVec Ideal ⟨2, ![K, A]⟩ φ₁)
    (r : FVec Ideal ⟨2, ![K, B]⟩ φ₂) (i : Fin A) (j : Fin B) :
    Host.dotGeneral (F := Ideal) (mmTD K A B wf) prec l r (ix2 i j) = ∑ k : Fin K, l (ix2 k i) * r (ix2 k j) := by
  simp only [Host.dotGeneral]
  rw [Ideal.dotGeneral_apply]
  exact mmT_sum wf l r i j

/-- The matrix unit's product at entry (i, j): the accumulator there plus the sum over k of l[k, i] * r[k, j]. -/
theorem matmulT_apply {φ₁ φ₂ : FTy} (prec : Option ContractPrecision) (l : FVec Ideal ⟨2, ![K, A]⟩ φ₁)
    (r : FVec Ideal ⟨2, ![K, B]⟩ φ₂) (acc : FVec Ideal ⟨2, ![A, B]⟩ .f32) (i : Fin A) (j : Fin B) :
    matmul (F := Ideal) (mmTD K A B wf) prec l r acc (ix2 i j)
      = acc (ix2 i j) + ∑ k : Fin K, l (ix2 k i) * r (ix2 k j) := by
  simp only [matmul]
  rw [Ideal.matmul_apply]
  exact congrArg (acc (ix2 i j) + ·) (mmT_sum wf l r i j)

end LeftTransposed

end Cert.Lib.MatMul

end
-- ==== Proof.LibLayout.lean ====
/-
  A row vector broadcast along the rows, read at an entry (a general lemma: nothing here depends on a program).

  A vector of B entries, shape-cast to one row [1, B] and broadcast to A rows [A, B], holds at (p, q) the vector's
  entry q.
-/
import Idealize.ShloMosaic.Lib.ValueIdx
import Idealize.ShloMosaic.Lib.Pipeline.Value

noncomputable section

namespace Cert.Lib.Layout

open Idealize.ShloMosaic Idealize.ShloMosaic.ValueIdx

/-- The one row [1, B] of a vector, at (0, q), is the vector at q. -/
theorem rowCast_apply {α : Type} {B : Nat} (v : (⟨1, ![B]⟩ : Shape).Idx → α)
    (h1 : (⟨1, ![B]⟩ : Shape).ShapeCasts ⟨2, ![1, B]⟩) (z : Fin 1) (q : Fin B) :
    shapeCast ⟨2, ![1, B]⟩ v h1 (ix2 z q) = v (ix1 q) := by
  refine (shapeCast_addUnit_apply (n := 1) ![B] v h1 (ix2 z q)).trans (congrArg v ?_)
  funext a
  match a with
  | ⟨0, _⟩ => rfl

/-- The row broadcast to A rows, at (p, q), is the vector at q. -/
theorem bcastRow_apply {α : Type} {A B : Nat} (v : (⟨1, ![B]⟩ : Shape).Idx → α)
    (h1 : (⟨1, ![B]⟩ : Shape).ShapeCasts ⟨2, ![1, B]⟩) (h2 : (⟨2, ![1, B]⟩ : Shape).Broadcasts ⟨2, ![A, B]⟩)
    (p : Fin A) (q : Fin B) :
    broadcastTo ⟨2, ![A, B]⟩ (shapeCast ⟨2, ![1, B]⟩ v h1) h2 (ix2 p q) = v (ix1 q) := by
  refine (broadcastTo_apply (shapeCast ⟨2, ![1, B]⟩ v h1) h2 (ix2 p q) (ix2 (0 : Fin 1) q) ?_).trans
    (rowCast_apply v h1 0 q)
  intro a
  match a with
  | ⟨0, _⟩ => simp
  | ⟨1, _⟩ =>
    show q.val = if B = 1 then 0 else q.val
    split
    · have := q.isLt; omega
    · rfl

end Cert.Lib.Layout

end
-- ==== Proof.KI.PayAt.lean ====
/-
  The kernels' stored values read at one entry, at the exact instance (floats are extended reals; a change of float
  format is the identity).  With  linB x w b (r, e) = (∑ₖ x[0,r,k] · w[e,k]) + b[e]  a dense layer's entry over one
  block of rows:
    the reset value is 0;
    one tile's update of the accumulator at (d, e) is  acc[d,e] + (∑ᵣ K[r,d] · V[r,e]) · 2⁻⁵  over the tile's 256 rows;
    the copy to the output block is the accumulator itself;
    the second kernel's block at (r, e) is  ∑_d Q[r,d] · kv[0,d,e].
-/
import proofs.«101504_j21363167330926_1_alg».proof.Proof.Gen.KernelIdeal.Skeleton
import proofs.«101504_j21363167330926_1_alg».proof.Proof.Spec
import proofs.«101504_j21363167330926_1_alg».proof.Proof.LibMatmulRowRow
import proofs.«101504_j21363167330926_1_alg».proof.Proof.LibMatmul
import proofs.«101504_j21363167330926_1_alg».proof.Proof.LibLayout
import Idealize.ShloMosaic.Lib.ValueLayout

noncomputable section

open scoped BigOperators

namespace Cert.KernelIdeal.Hand

open Idealize.ShloMosaic Idealize.ShloMosaic.ValueIdx Cert.KernelIdeal Cert.KernelIdeal.Gen

/-- One entry of a dense layer x·wᵀ + b over a block of R rows (the block's leading axis has extent 1). -/
def linB {R : Nat} (x : (⟨3, ![1, R, 1024]⟩ : Shape).Idx → EReal) (w : Cert.Attn.SW.Idx → EReal) (b : Cert.Attn.SB.Idx → EReal)
    (r : Fin R) (e : Fin 1024) : EReal :=
  (∑ k : Fin 1024, x (ix3 (0 : Fin 1) r k) * w (ix2 e k)) + b (ix1 e)

/-- The pattern 0x3D000000 denotes 2⁻⁵ = 1/32. -/
private theorem ofBits_scale : Ideal.ofBits .f32 0x3D000000#32 = Cert.Attn.scale := by
  unfold Cert.Attn.scale
  simp [Ideal.ofBits, Ideal.ieee, -EReal.coe_mul]; norm_num

/-- A dense layer over a block of R rows, at an entry: the block with its unit axis dropped, times the transpose of
    the weight, into a zero accumulator, plus the bias broadcast down the rows. -/
private theorem lin_entry {R : Nat} (x : FVec Ideal ⟨3, ![1, R, 1024]⟩ .f32) (w : FVec Ideal ⟨2, ![1024, 1024]⟩ .f32)
    (b : FVec Ideal ⟨1, ![1024]⟩ .f32)
    (hc : (⟨3, ![1, R, 1024]⟩ : Shape).ShapeCasts ⟨2, ![R, 1024]⟩)
    (h1 : (⟨1, ![1024]⟩ : Shape).ShapeCasts ⟨2, ![1, 1024]⟩)
    (h2 : (⟨2, ![1, 1024]⟩ : Shape).Broadcasts ⟨2, ![R, 1024]⟩)
    (hb : FTy.bits .bf16 < FTy.bits .f32)
    (r : Fin R) (e : Fin 1024) :
    addf (matmul (F := Ideal) (DotDims.transposedRhs R 1024 1024) none
          (truncf .bf16 (shapeCast ⟨2, ![R, 1024]⟩ x hc) hb) (truncf .bf16 w hb)
          (constant ⟨2, ![R, 1024]⟩ .f32 0x00000000#32))
        (broadcastTo ⟨2, ![R, 1024]⟩ (shapeCast ⟨2, ![1, 1024]⟩ b h1) h2) (ix2 r e)
      = linB x w b r e := by
  refine (congrArg₂ (· + ·)
    (Cert.Lib.MatmulRowRow.matmul_zero_apply none
      (truncf .bf16 (shapeCast ⟨2, ![R, 1024]⟩ x hc) hb) (truncf .bf16 w hb) r e)
    (Cert.Lib.Layout.bcastRow_apply b h1 h2 r e)).trans ?_
  unfold linB
  refine congrArg (· + b (ix1 e)) (Finset.sum_congr rfl fun k _ => ?_)
  exact congrArg (· * w (ix2 e k)) (shapeCast_1ab_ab_apply x hc r k)

/-- The product of the transpose of K with V over a tile of R rows, into a zero accumulator, scaled by the literal
    2⁻⁵ and added to the running value, at an entry. -/
private theorem kv_entry {R : Nat} (K V : FVec Ideal ⟨2, ![R, 1024]⟩ .f32) (acc : FVec Ideal ⟨2, ![1024, 1024]⟩ .f32)
    (wf : DotDims.WF ⟨2, ![R, 1024]⟩ ⟨2, ![R, 1024]⟩ ⟨2, ![1024, 1024]⟩ [0] [0] [1] [1] [] [])
    (hb : FTy.bits .bf16 < FTy.bits .f32) (d e : Fin 1024) :
    addf acc (mulf (matmul (F := Ideal) (Cert.Lib.MatMul.mmTD R 1024 1024 wf) none (truncf .bf16 K hb) (truncf .bf16 V hb)
          (constant ⟨2, ![1024, 1024]⟩ .f32 0x00000000#32))
        (broadcast ⟨2, ![1024, 1024]⟩ (Scalar.ofBits (F := Ideal) .f32 0x3D000000#32))) (ix2 d e)
      = acc (ix2 d e) + (∑ r : Fin R, K (ix2 r d) * V (ix2 r e)) * Cert.Attn.scale := by
  refine congrArg (acc (ix2 d e) + ·) ?_
  refine (congrArg₂ (· * ·)
    (Cert.Lib.MatMul.matmulT_apply wf none (truncf .bf16 K hb) (truncf .bf16 V hb)
      (constant ⟨2, ![1024, 1024]⟩ .f32 0x00000000#32) d e) ofBits_scale).trans ?_
  refine congrArg (· * Cert.Attn.scale) ?_
  refine (congrArg (· + ∑ r : Fin R, K (ix2 r d) * V (ix2 r e)) Ideal.ofBits_zero_f32).trans ?_
  exact zero_add _

/-- The plain product of Q (R rows) with the block kv, its unit axis dropped, into a zero accumulator, at an entry. -/
private theorem out_entry {R : Nat} (Q : FVec Ideal ⟨2, ![R, 1024]⟩ .f32) (kv : FVec Ideal ⟨3, ![1, 1024, 1024]⟩ .f32)
    (hc : (⟨3, ![1, 1024, 1024]⟩ : Shape).ShapeCasts ⟨2, ![1024, 1024]⟩)
    (wf : DotDims.WF ⟨2, ![R, 1024]⟩ ⟨2, ![1024, 1024]⟩ ⟨2, ![R, 1024]⟩ [1] [0] [0] [1] [] [])
    (hb : FTy.bits .bf16 < FTy.bits .f32) (r : Fin R) (e : Fin 1024) :
    matmul (F := Ideal) (Cert.Lib.MatMul.mmD R 1024 1024 wf) none (truncf .bf16 Q hb)
        (truncf .bf16 (shapeCast ⟨2, ![1024, 1024]⟩ kv hc) hb) (constant ⟨2, ![R, 1024]⟩ .f32 0x00000000#32) (ix2 r e)
      = ∑ d : Fin 1024, Q (ix2 r d) * kv (ix3 (0 : Fin 1) d e) := by
  refine (Cert.Lib.MatMul.matmul_apply wf none (truncf .bf16 Q hb)
    (truncf .bf16 (shapeCast ⟨2, ![1024, 1024]⟩ kv hc) hb) (constant ⟨2, ![R, 1024]⟩ .f32 0x00000000#32) r e).trans ?_
  refine (congrArg (· + ∑ k : Fin 1024, Q (ix2 r k) * shapeCast ⟨2, ![1024, 1024]⟩ kv hc (ix2 k e))
    Ideal.ofBits_zero_f32).trans ?_
  refine (zero_add _).trans (Finset.sum_congr rfl fun k _ => ?_)
  exact congrArg (Q (ix2 r k) * ·) (shapeCast_1ab_ab_apply kv hc k e)

/-- The reset value is the zero matrix. -/
theorem pay1_apply (d e : Fin 1024) : k0_pay1 (F := Ideal) (ix2 d e) = (0 : EReal) := by
  unfold k0_pay1
  refine (congrFun (shapeCast_self _ _) _).trans ?_
  exact Ideal.ofBits_zero_f32

/-- One tile's update of the accumulator, at an entry. -/
theorem pay2_apply (x : Vec Ideal S1x256x1024 .f32) (wk wv : Vec Ideal S1024x1024 .f32) (bk bv : Vec Ideal S1024 .f32)
    (acc : Vec Ideal S1024x1024 .f32) (d e : Fin 1024) :
    k0_pay2 (F := Ideal) x wk wv bk bv acc (ix2 d e)
      = acc (ix2 d e) + (∑ r : Fin 256, linB x wk bk r d * linB x wv bv r e) * Cert.Attn.scale := by
  unfold k0_pay2
  refine (congrFun (shapeCast_self _ _) _).trans ?_
  refine (kv_entry _ _ acc dot_S256x1024_S256x1024_S1024x1024_0_0_1_1_n_n_wf bitsLt_bf16_f32 d e).trans ?_
  refine congrArg (fun t => acc (ix2 d e) + t * Cert.Attn.scale) (Finset.sum_congr rfl fun r _ => ?_)
  exact congrArg₂ (· * ·)
    (lin_entry x wk bk shapeCasts_S1x256x1024_S256x1024 shapeCasts_S1024_S1x1024 broadcasts_S1x1024_S256x1024
      bitsLt_bf16_f32 r d)
    (lin_entry x wv bv shapeCasts_S1x256x1024_S256x1024 shapeCasts_S1024_S1x1024 broadcasts_S1x1024_S256x1024
      bitsLt_bf16_f32 r e)

/-- The copy to the output block is the accumulator itself. -/
theorem pay3_apply (a : Vec Ideal S1024x1024 .f32) (d e : Fin 1024) :
    k0_pay3 (F := Ideal) a (ix3 (0 : Fin 1) d e) = a (ix2 d e) := by
  unfold k0_pay3
  exact shapeCast_ab_1ab_apply a _ 0 d e

/-- The second kernel's stored block, at an entry. -/
theorem k1pay_apply (x : Vec Ideal S1x512x1024 .f32) (wq : Vec Ideal S1024x1024 .f32) (bq : Vec Ideal S1024 .f32)
    (kvb : Vec Ideal S1x1024x1024 .f32) (r : Fin 512) (e : Fin 1024) :
    k1_pay1 (F := Ideal) x wq bq kvb (ix3 (0 : Fin 1) r e)
      = ∑ d : Fin 1024, linB x wq bq r d * kvb (ix3 (0 : Fin 1) d e) := by
  unfold k1_pay1
  refine (shapeCast_ab_1ab_apply _ shapeCasts_S512x1024_S1x512x1024 0 r e).trans ?_
  refine (out_entry _ kvb shapeCasts_S1x1024x1024_S1024x1024 dot_S512x1024_S1024x1024_S512x1024_1_0_0_1_n_n_wf
    bitsLt_bf16_f32 r e).trans ?_
  refine Finset.sum_congr rfl fun d _ => ?_
  exact congrArg (· * kvb (ix3 (0 : Fin 1) d e))
    (lin_entry x wq bq shapeCasts_S1x512x1024_S512x1024 shapeCasts_S1024_S1x1024 broadcasts_S1x1024_S512x1024
      bitsLt_bf16_f32 r d)

end Cert.KernelIdeal.Hand

end
-- ==== Proof.LibBlockSum.lean ====
/-
  A sum over B·J consecutive naturals, block by block (a general lemma: nothing here depends on a program).
-/
import Mathlib.Algebra.BigOperators.Fin
import Mathlib.Algebra.BigOperators.Intervals

namespace BlockSum

/-- The sum of `f` over `0 … B·J − 1` is the sum over the `J` blocks of the `B` terms of each block. -/
theorem sum_blocks {β : Type*} [AddCommMonoid β] (B J : ℕ) (f : ℕ → β) :
    ∑ s ∈ Finset.range J, ∑ j : Fin B, f (B * s + j.val) = ∑ k : Fin (B * J), f k.val := by
  -- Both sides become sums over initial segments of ℕ; then one block is split off at a time.
  rw [Fin.sum_univ_eq_sum_range (fun k => f k) (B * J)]
  induction J with
  | zero => simp
  | succ J ih =>
    rw [Finset.sum_range_succ, ih, Nat.mul_succ, Finset.sum_range_add,
      Fin.sum_univ_eq_sum_range (fun j => f (B * J + j)) B]

end BlockSum
-- ==== Proof.KI.R0Value.lean ====
/-
  Region 0, the value: after the 64 points of the 4 × 16 grid the output array [4, 1024, 1024] holds, at (β, d, e),
      kv[β, d, e] = (∑_{n < 4096} K[β, n, d] · V[β, n, e]) · 2⁻⁵,
  K and V the dense layers of x with (wk, bk) and (wv, bv).

  Point t is tile s = t % 16 of batch β = t / 16.  Its block of x is rows 256 s … 256 s + 255 of batch β; its blocks
  of the weights and biases are the whole arrays.  So the tile adds (∑_{r < 256} K[β, 256 s + r, d] · V[β, 256 s + r, e]) · 2⁻⁵
  to the accumulator's entry (d, e), and after tile s the entry is the sum of these over the tiles 0 … s (induction on
  s; tile 0 starts from the zero matrix).  Multiplication by the nonnegative real 2⁻⁵ distributes over sums of
  extended reals with no finiteness asked, so after tile 15 the entry is (∑_{s < 16} ∑_{r < 256} …) · 2⁻⁵, and the 16
  tiles of 256 rows are the 4096 rows.  The output block is written back at the points t % 16 = 15 only, at block
  (β, 0, 0): the four written slabs are the four batches and cover the array.
-/
import proofs.«101504_j21363167330926_1_alg».proof.Proof.KI.R0Data
import proofs.«101504_j21363167330926_1_alg».proof.Proof.KI.PayAt
import proofs.«101504_j21363167330926_1_alg».proof.Proof.Spec
import proofs.«101504_j21363167330926_1_alg».proof.Proof.LibBlockSum
import Idealize.ShloMosaic.Lib.Pipeline.Value
import Idealize.ShloMosaic.Lib.ValueIdx
import Mathlib.Data.EReal.Operations

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The printed index maps over the grid

Point t of the 4 × 16 grid is batch t / 16, tile t % 16.  The window of x is at block (batch, tile, 0), the windows of
the two weights and the two biases at block 0 on every axis, the output window at block (batch, 0, 0). -/

theorem idx0_0 : ∀ t : Fin cfg0.N, win0_0.index t (0 : Fin 3) = t.val / 16 ∧ win0_0.index t (1 : Fin 3) = t.val % 16
    ∧ win0_0.index t (2 : Fin 3) = 0 :=
  (by decide +kernel : ∀ t : Fin grid0.N, _)

theorem idx0_1 : ∀ t : Fin cfg0.N, win0_1.index t (0 : Fin 2) = 0 ∧ win0_1.index t (1 : Fin 2) = 0 :=
  (by decide +kernel : ∀ t : Fin grid0.N, _)

theorem idx0_2 : ∀ t : Fin cfg0.N, win0_2.index t (0 : Fin 1) = 0 :=
  (by decide +kernel : ∀ t : Fin grid0.N, _)

theorem idx0_3 : ∀ t : Fin cfg0.N, win0_3.index t (0 : Fin 2) = 0 ∧ win0_3.index t (1 : Fin 2) = 0 :=
  (by decide +kernel : ∀ t : Fin grid0.N, _)

theorem idx0_4 : ∀ t : Fin cfg0.N, win0_4.index t (0 : Fin 1) = 0 :=
  (by decide +kernel : ∀ t : Fin grid0.N, _)

theorem idx0_5 : ∀ t : Fin cfg0.N, win0_5.index t (0 : Fin 3) = t.val / 16 ∧ win0_5.index t (1 : Fin 3) = 0
    ∧ win0_5.index t (2 : Fin 3) = 0 :=
  (by decide +kernel : ∀ t : Fin grid0.N, _)

/-! ## The blocks, read off the arrays

An element of a block sits in its array, on each axis, at block index × block size + its coordinate in the block. -/

/-- The tile of x at point t: row r of the tile is row 256·(t % 16) + r of batch t / 16. -/
theorem xb0_apply (c : Dev nD) (t : Fin cfg0.N) (r : Fin 256) (k : Fin 1024) (i : S4x4096x1024.Idx)
    (h0 : (i 0).val = t.val / 16) (h1 : (i 1).val = 256 * (t.val % 16) + r.val) (h2 : (i 2).val = k.val) :
    xb0 V c t (ix3 (0 : Fin 1) r k) = V c main_arg0 i := by
  obtain ⟨e0, e1, e2⟩ := idx0_0 t
  show iblk0 V c 0 t (ix3 (0 : Fin 1) r k) = _
  unfold iblk0
  rw [View.read_apply]
  show V c main_arg0 _ = V c main_arg0 i
  congr 1
  funext a
  apply Fin.ext
  match a with
  | ⟨0, _⟩ => show win0_0.index t (0 : Fin 3) * 1 + 1 * (0 : Fin 1).val = (i 0).val; rw [e0, h0]; simp
  | ⟨1, _⟩ => show win0_0.index t (1 : Fin 3) * 256 + 1 * r.val = (i 1).val; rw [e1, h1]; omega
  | ⟨2, _⟩ => show win0_0.index t (2 : Fin 3) * 1024 + 1 * k.val = (i 2).val; rw [e2, h2]; omega

/-- The block of wk is all of wk, -/
theorem wkb0_eq (c : Dev nD) (t : Fin cfg0.N) : (wkb0 V c t : S1024x1024.Idx → EReal) = V c main_arg3 := by
  obtain ⟨e0, e1⟩ := idx0_1 t
  funext j
  show iblk0 V c 1 t j = _
  unfold iblk0
  rw [View.read_apply]
  show V c main_arg3 _ = V c main_arg3 j
  congr 1
  funext a
  apply Fin.ext
  match a with
  | ⟨0, _⟩ => show win0_1.index t (0 : Fin 2) * 1024 + 1 * (j 0).val = (j 0).val; omega
  | ⟨1, _⟩ => show win0_1.index t (1 : Fin 2) * 1024 + 1 * (j 1).val = (j 1).val; omega

/-- the block of bk all of bk, -/
theorem bkb0_eq (c : Dev nD) (t : Fin cfg0.N) : (bkb0 V c t : S1024.Idx → EReal) = V c main_arg4 := by
  have e0 := idx0_2 t
  funext j
  show iblk0 V c 2 t j = _
  unfold iblk0
  rw [View.read_apply]
  show V c main_arg4 _ = V c main_arg4 j
  congr 1
  funext a
  apply Fin.ext
  match a with
  | ⟨0, _⟩ => show win0_2.index t (0 : Fin 1) * 1024 + 1 * (j 0).val = (j 0).val; omega

/-- the block of wv all of wv, -/
theorem wvb0_eq (c : Dev nD) (t : Fin cfg0.N) : (wvb0 V c t : S1024x1024.Idx → EReal) = V c main_arg5 := by
  obtain ⟨e0, e1⟩ := idx0_3 t
  funext j
  show iblk0 V c 3 t j = _
  unfold iblk0
  rw [View.read_apply]
  show V c main_arg5 _ = V c main_arg5 j
  congr 1
  funext a
  apply Fin.ext
  match a with
  | ⟨0, _⟩ => show win0_3.index t (0 : Fin 2) * 1024 + 1 * (j 0).val = (j 0).val; omega
  | ⟨1, _⟩ => show win0_3.index t (1 : Fin 2) * 1024 + 1 * (j 1).val = (j 1).val; omega

/-- and the block of bv all of bv. -/
theorem bvb0_eq (c : Dev nD) (t : Fin cfg0.N) : (bvb0 V c t : S1024.Idx → EReal) = V c main_arg6 := by
  have e0 := idx0_4 t
  funext j
  show iblk0 V c 4 t j = _
  unfold iblk0
  rw [View.read_apply]
  show V c main_arg6 _ = V c main_arg6 j
  congr 1
  funext a
  apply Fin.ext
  match a with
  | ⟨0, _⟩ => show win0_4.index t (0 : Fin 1) * 1024 + 1 * (j 0).val = (j 0).val; omega

/-! ## One tile's dense layers are rows of the whole arrays' dense layers -/

/-- A dense layer over a block of rows, at row r, is the dense layer over the whole array at the row the block's
    row r is. -/
theorem linB_eq_lin (xb : Vec Ideal S1x256x1024 .f32) (x : Cert.Attn.SX.Idx → EReal) (w : Cert.Attn.SW.Idx → EReal)
    (b : Cert.Attn.SB.Idx → EReal) (β : Fin 4) (n : Fin 4096) (r : Fin 256) (e : Fin 1024)
    (hx : ∀ k : Fin 1024, xb (ix3 (0 : Fin 1) r k) = x (ix3 β n k)) :
    linB xb w b r e = Cert.Attn.lin x w b β n e := by
  unfold linB Cert.Attn.lin
  congr 1
  exact Finset.sum_congr rfl fun k _ => by rw [hx k]

/-- The product K[β, n, d] · V[β, n, e] of the two dense layers at row n of batch b, as a function of two naturals
    (zero outside the array, where it is never read). -/
def kvTerm (x : Cert.Attn.SX.Idx → EReal) (wk : Cert.Attn.SW.Idx → EReal) (bk : Cert.Attn.SB.Idx → EReal)
    (wv : Cert.Attn.SW.Idx → EReal) (bv : Cert.Attn.SB.Idx → EReal) (d e : Fin 1024) (b n : ℕ) : EReal :=
  if h : b < 4 ∧ n < 4096 then
    Cert.Attn.lin x wk bk ⟨b, h.1⟩ ⟨n, h.2⟩ d * Cert.Attn.lin x wv bv ⟨b, h.1⟩ ⟨n, h.2⟩ e
  else 0

/-- ONE TILE'S UPDATE at an entry: at the point of batch q and tile s the accumulator's entry (d, e) grows by the
    scaled sum, over the tile's 256 rows, of K[q, 256 s + r, d] · V[q, 256 s + r, e]. -/
theorem step0_apply (c : Dev nD) (t : Fin cfg0.N) (acc : Vec Ideal S1024x1024 .f32) (d e : Fin 1024) (q s : ℕ)
    (hq : t.val / 16 = q) (hs : t.val % 16 = s) :
    step0 V c t acc (ix2 d e) = acc (ix2 d e)
      + (∑ r : Fin 256, kvTerm (V c main_arg0) (V c main_arg3) (V c main_arg4) (V c main_arg5) (V c main_arg6) d e q
          (256 * s + r.val)) * Cert.Attn.scale := by
  have hN : cfg0.N = 64 := N_0
  have ht := t.isLt
  have key : (∑ r : Fin 256, linB (xb0 V c t) (wkb0 V c t) (bkb0 V c t) r d * linB (xb0 V c t) (wvb0 V c t) (bvb0 V c t) r e)
      = ∑ r : Fin 256, kvTerm (V c main_arg0) (V c main_arg3) (V c main_arg4) (V c main_arg5) (V c main_arg6) d e q
          (256 * s + r.val) := by
    refine Finset.sum_congr rfl fun r _ => ?_
    have hb : q < 4 := by omega
    have hn : 256 * s + r.val < 4096 := by have := r.isLt; omega
    unfold kvTerm
    rw [dif_pos ⟨hb, hn⟩, wkb0_eq, bkb0_eq, wvb0_eq, bvb0_eq]
    rw [linB_eq_lin (xb0 V c t) (V c main_arg0) (V c main_arg3) (V c main_arg4) ⟨q, hb⟩ ⟨256 * s + r.val, hn⟩ r d
        (fun k => xb0_apply V c t r k _ hq.symm (by rw [hs]) rfl),
      linB_eq_lin (xb0 V c t) (V c main_arg0) (V c main_arg5) (V c main_arg6) ⟨q, hb⟩ ⟨256 * s + r.val, hn⟩ r e
        (fun k => xb0_apply V c t r k _ hq.symm (by rw [hs]) rfl)]
  refine (pay2_apply _ _ _ _ _ _ d e).trans ?_
  rw [key]

/-! ## The accumulator after each point, in closed form -/

theorem accAt0_congr (c : Dev nD) (n m : ℕ) (hn : n < cfg0.N) (hm : m < cfg0.N) (h : n = m) :
    accAt0 V c n hn = accAt0 V c m hm := by
  subst h; rfl

/-- After tile s of batch q the accumulator's entry (d, e) is the sum of the scaled tile sums of tiles 0 … s:
    tile 0 starts from the zero matrix, every later tile adds to what the tile before left. -/
theorem acc_closed (c : Dev nD) (d e : Fin 1024) (q : ℕ) : ∀ s : ℕ, s < 16 → ∀ h : 16 * q + s < cfg0.N,
    accAt0 V c (16 * q + s) h (ix2 d e)
      = ∑ s' ∈ Finset.range (s + 1),
          (∑ r : Fin 256, kvTerm (V c main_arg0) (V c main_arg3) (V c main_arg4) (V c main_arg5) (V c main_arg6) d e q
            (256 * s' + r.val)) * Cert.Attn.scale := by
  intro s
  induction s with
  | zero =>
    intro _ h
    have e1 := accAt0_reset V c ⟨16 * q + 0, h⟩ (by show (16 * q + 0) % 16 = 0; omega)
    rw [show accAt0 V c (16 * q + 0) h = _ from e1,
      step0_apply V c ⟨16 * q + 0, h⟩ _ d e q 0 (by show (16 * q + 0) / 16 = q; omega) (by show (16 * q + 0) % 16 = 0; omega),
      pay1_apply, zero_add, Finset.sum_range_one]
  | succ s ih =>
    intro hs h
    have e1 := accAt0_acc V c ⟨16 * q + (s + 1), h⟩ (by show ¬(16 * q + (s + 1)) % 16 = 0; omega)
    rw [show accAt0 V c (16 * q + (s + 1)) h = _ from e1,
      step0_apply V c ⟨16 * q + (s + 1), h⟩ _ d e q (s + 1) (by show (16 * q + (s + 1)) / 16 = q; omega)
        (by show (16 * q + (s + 1)) % 16 = s + 1; omega),
      accAt0_congr V c _ (16 * q + s) _ (by omega) (by show 16 * q + (s + 1) - 1 = 16 * q + s; omega),
      ih (by omega) _, Finset.sum_range_succ _ (s + 1)]

/-- At the last tile of a batch (t % 16 = 15) all 16 tiles are in. -/
theorem acc_last (c : Dev nD) (t : Fin cfg0.N) (h15 : t.val % 16 = 15) (d e : Fin 1024) :
    accAt0 V c t.val t.isLt (ix2 d e)
      = ∑ s' ∈ Finset.range 16,
          (∑ r : Fin 256, kvTerm (V c main_arg0) (V c main_arg3) (V c main_arg4) (V c main_arg5) (V c main_arg6) d e
            (t.val / 16) (256 * s' + r.val)) * Cert.Attn.scale := by
  have hN : cfg0.N = 64 := N_0
  have ht := t.isLt
  have h' : 16 * (t.val / 16) + 15 < cfg0.N := by omega
  rw [accAt0_congr V c t.val (16 * (t.val / 16) + 15) t.isLt h' (by omega)]
  exact acc_closed V c d e (t.val / 16) 15 (by omega) h'

/-! ## The scale through the sums, and the 16 tiles of 256 rows as the 4096 rows -/

theorem scale_nonneg : 0 ≤ Cert.Attn.scale := by
  unfold Cert.Attn.scale
  exact_mod_cast (by norm_num : (0 : ℝ) ≤ 1 / 32)

theorem scale_ne_top : Cert.Attn.scale ≠ ⊤ := EReal.coe_ne_top _

/-- Multiplication by the nonnegative real scale distributes over a finite sum of extended reals, whatever the
    terms (an infinite term of either sign keeps its sign under a nonnegative finite factor, and a zero factor
    sends everything to zero on both sides). -/
theorem sum_mul_scale {ι : Type} (S : Finset ι) (f : ι → EReal) :
    ∑ i ∈ S, f i * Cert.Attn.scale = (∑ i ∈ S, f i) * Cert.Attn.scale := by
  classical
  induction S using Finset.induction_on with
  | empty => simp
  | insert a S ha ih =>
    rw [Finset.sum_insert ha, Finset.sum_insert ha, ih, EReal.right_distrib_of_nonneg_of_ne_top scale_nonneg scale_ne_top]

/-- The 16 scaled tile sums of batch β add up to the entry of the scaled product Kᵀ·V. -/
theorem tiles_eq_kv (x : Cert.Attn.SX.Idx → EReal) (wk : Cert.Attn.SW.Idx → EReal) (bk : Cert.Attn.SB.Idx → EReal)
    (wv : Cert.Attn.SW.Idx → EReal) (bv : Cert.Attn.SB.Idx → EReal) (β : Fin 4) (d e : Fin 1024) :
    ∑ s' ∈ Finset.range 16, (∑ r : Fin 256, kvTerm x wk bk wv bv d e β.val (256 * s' + r.val)) * Cert.Attn.scale
      = Cert.Attn.kv x wk bk wv bv β d e := by
  rw [sum_mul_scale]
  unfold Cert.Attn.kv
  congr 1
  refine (BlockSum.sum_blocks 256 16 (fun n => kvTerm x wk bk wv bv d e β.val n)).trans ?_
  show ∑ n : Fin 4096, kvTerm x wk bk wv bv d e β.val n.val = _
  refine Finset.sum_congr rfl fun n _ => ?_
  unfold kvTerm
  rw [dif_pos ⟨β.isLt, n.isLt⟩]

/-! ## What the last tile of a batch writes back, and the array after the region -/

/-- WHAT A WRITING POINT WRITES BACK is its block of the array of scaled products: the point is the last tile of
    its batch t / 16, its block is that batch's [1024, 1024] slab, and the accumulator holds all 16 tiles. -/
theorem flushed5_eq (c : Dev nD) (t : Fin cfg0.N) (hf : (cfg0.win 5).flush t = true) :
    (dat0 (F := Ideal) V c).flushed 5 t
      = ((cfg0.win 5).blk t).view.read (Elt Ideal)
          (Cert.Attn.kvArr (V c main_arg0) (V c main_arg3) (V c main_arg4) (V c main_arg5) (V c main_arg6)) := by
  have h15 : t.val % 16 = 15 := (flush0_5 t).mp hf
  have hN : cfg0.N = 64 := N_0
  have ht := t.isLt
  have hb : t.val / 16 < 4 := by omega
  obtain ⟨e0, e1, e2⟩ := idx0_5 t
  show (cfg0.win 5).cut (grid0.coords t) ((dat0 (F := Ideal) V c).after 5 t) = _
  rw [after0_5]
  refine funext fun (y : S1x1024x1024.Idx) => ?_
  obtain ⟨y0, d, e, rfl⟩ : ∃ (y0 : Fin 1) (d e : Fin 1024), y = ix3 y0 d e := ⟨y 0, y 1, y 2, eq_ix3 y⟩
  obtain rfl : y0 = 0 := Subsingleton.elim _ _
  rw [View.read_apply]
  show k0_pay3 (accAt0 V c t.val t.isLt) (ix3 (0 : Fin 1) d e)
    = Cert.Attn.kvArr (V c main_arg0) (V c main_arg3) (V c main_arg4) (V c main_arg5) (V c main_arg6)
        (((cfg0.win 5).blk t).view.emb (ix3 (0 : Fin 1) d e))
  have hemb : ((cfg0.win 5).blk t).view.emb (ix3 (0 : Fin 1) d e) = ix3 (⟨t.val / 16, hb⟩ : Fin 4) d e := by
    funext a
    apply Fin.ext
    match a with
    | ⟨0, _⟩ => show win0_5.index t (0 : Fin 3) * 1 + 1 * (0 : Fin 1).val = t.val / 16; rw [e0]; simp
    | ⟨1, _⟩ => show win0_5.index t (1 : Fin 3) * 1024 + 1 * d.val = d.val; omega
    | ⟨2, _⟩ => show win0_5.index t (2 : Fin 3) * 1024 + 1 * e.val = e.val; omega
  rw [hemb, pay3_apply, acc_last V c t h15 d e]
  exact tiles_eq_kv _ _ _ _ _ ⟨t.val / 16, hb⟩ d e

/-- THE ARRAY AFTER THE REGION: the four writing points' slabs are the four batches, so the output array ends
    holding the scaled products Kᵀ·V of all batches. -/
theorem final0 (c : Dev nD) :
    ((dat0 (F := Ideal) V c).arrAt 5 cfg0.N : S4x1024x1024.Idx → EReal)
      = Cert.Attn.kvArr (V c main_arg0) (V c main_arg3) (V c main_arg4) (V c main_arg5) (V c main_arg6) :=
  (dat0 (F := Ideal) V c).arrAt_eq_of_cover 5
    (Cert.Attn.kvArr (V c main_arg0) (V c main_arg3) (V c main_arg4) (V c main_arg5) (V c main_arg6))
    (flushed5_eq V c) fun i => by
      have hN : cfg0.N = 64 := N_0
      have hi0 : (i 0).val < 4 := (i 0).isLt
      have hi1 : (i 1).val < 1024 := (i 1).isLt
      have hi2 : (i 2).val < 1024 := (i 2).isLt
      obtain ⟨t, ht⟩ : ∃ t : Fin cfg0.N, t.val = 16 * (i 0).val + 15 := ⟨⟨16 * (i 0).val + 15, by omega⟩, rfl⟩
      obtain ⟨e0, e1, e2⟩ := idx0_5 t
      refine ⟨t, (flush0_5 t).mpr (by omega), ?_⟩
      show i ∈ ((View.whole main_v0).slice (win0_5.rect t)).set
      rw [View.set_slice_whole, Rect.mem_set_unit]
      intro a
      match a with
      | ⟨0, _⟩ =>
        show win0_5.index t (0 : Fin 3) * 1 ≤ (i 0).val ∧ (i 0).val < win0_5.index t (0 : Fin 3) * 1 + 1
        omega
      | ⟨1, _⟩ =>
        show win0_5.index t (1 : Fin 3) * 1024 ≤ (i 1).val ∧ (i 1).val < win0_5.index t (1 : Fin 3) * 1024 + 1024
        omega
      | ⟨2, _⟩ =>
        show win0_5.index t (2 : Fin 3) * 1024 ≤ (i 2).val ∧ (i 2).val < win0_5.index t (2 : Fin 3) * 1024 + 1024
        omega

end Cert.KernelIdeal.Hand

end
-- ==== Proof.KI.R1Value.lean ====
/-
  Region 1, from blocks to the array.  Point t of the 4 × 8 grid is (β, j) = (t / 8, t % 8).  Its x block is rows
  512·j … 512·j + 511 of batch β, its weight and bias blocks are the whole weight and bias, its product block is batch β
  of the per-batch products, and the block it stores is output block (β, j).  With
      lin (β, s, d) = (∑ₖ x[β,s,k] · wq[d,k]) + bq[d]       and       out (β, s, e) = ∑_d lin (β, s, d) · KV[β,d,e],
  the stored block at (0, r, e) is  ∑_d linB(x block)(r, d) · KV block[0,d,e] = out (β, 512·j + r, e):  block (β, j) of the
  array  outArr x wq bq KV.  Every point writes its block back and the 32 blocks tile the [4, 4096, 1024] array (row n of
  batch β lies in the block of point 8·β + n / 512), so the array ends holding  outArr x wq bq KV.
-/
import proofs.«101504_j21363167330926_1_alg».proof.Proof.KI.R1Data
import proofs.«101504_j21363167330926_1_alg».proof.Proof.KI.PayAt
import proofs.«101504_j21363167330926_1_alg».proof.Proof.Spec
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The printed index maps over the grid: point t is (β, j) = (t / 8, t % 8); the rows of x and the output block sit
    at block index (β, j, 0), the weight and the bias at block index 0, the batch's product at (β, 0, 0). -/
theorem idx1 : ∀ t : Fin cfg1.N,
    win1_0.index t (0 : Fin 3) = t.val / 8 ∧ win1_0.index t (1 : Fin 3) = t.val % 8 ∧ win1_0.index t (2 : Fin 3) = 0
    ∧ win1_1.index t (0 : Fin 2) = 0 ∧ win1_1.index t (1 : Fin 2) = 0
    ∧ win1_2.index t (0 : Fin 1) = 0
    ∧ win1_3.index t (0 : Fin 3) = t.val / 8 ∧ win1_3.index t (1 : Fin 3) = 0 ∧ win1_3.index t (2 : Fin 3) = 0
    ∧ win1_4.index t (0 : Fin 3) = t.val / 8 ∧ win1_4.index t (1 : Fin 3) = t.val % 8 ∧ win1_4.index t (2 : Fin 3) = 0 :=
  (by decide +kernel : ∀ t : Fin grid1.N, _)

/-- The block of x at point t holds rows 512·(t % 8) … of batch t / 8. -/
theorem xb1_apply (c : Dev nD) (t : Fin cfg1.N) (y : S1x512x1024.Idx) (i : S4x4096x1024.Idx)
    (h0 : (i 0).val = t.val / 8) (h1 : (i 1).val = 512 * (t.val % 8) + (y 1).val) (h2 : (i 2).val = (y 2).val) :
    xb1 V c t y = (V c main_arg0 : S4x4096x1024.Idx → EReal) i := by
  obtain ⟨e0, e1, e2, -⟩ := idx1 t
  show iblk1 V c 0 t y = _
  unfold iblk1
  rw [View.read_apply]
  show V c main_arg0 _ = V c main_arg0 _
  congr 1
  funext a
  apply Fin.ext
  have hy0 : (y 0).val < 1 := (y 0).isLt
  match a with
  | ⟨0, _⟩ => show win1_0.index t (0 : Fin 3) * 1 + 1 * (y 0).val = (i 0).val; omega
  | ⟨1, _⟩ => show win1_0.index t (1 : Fin 3) * 512 + 1 * (y 1).val = (i 1).val; omega
  | ⟨2, _⟩ => show win1_0.index t (2 : Fin 3) * 1024 + 1 * (y 2).val = (i 2).val; omega

/-- The weight block is the whole weight. -/
theorem wqb1_eq (c : Dev nD) (t : Fin cfg1.N) : wqb1 V c t = (V c main_arg1 : S1024x1024.Idx → EReal) := by
  obtain ⟨-, -, -, e0, e1, -⟩ := idx1 t
  funext y
  show iblk1 V c 1 t y = _
  unfold iblk1
  rw [View.read_apply]
  show V c main_arg1 _ = V c main_arg1 _
  congr 1
  funext a
  apply Fin.ext
  match a with
  | ⟨0, _⟩ => show win1_1.index t (0 : Fin 2) * 1024 + 1 * (y 0).val = (y 0).val; omega
  | ⟨1, _⟩ => show win1_1.index t (1 : Fin 2) * 1024 + 1 * (y 1).val = (y 1).val; omega

/-- The bias block is the whole bias. -/
theorem bqb1_eq (c : Dev nD) (t : Fin cfg1.N) : bqb1 V c t = (V c main_arg2 : S1024.Idx → EReal) := by
  obtain ⟨-, -, -, -, -, e0, -⟩ := idx1 t
  funext y
  show iblk1 V c 2 t y = _
  unfold iblk1
  rw [View.read_apply]
  show V c main_arg2 _ = V c main_arg2 _
  congr 1
  funext a
  apply Fin.ext
  match a with
  | ⟨0, _⟩ => show win1_2.index t (0 : Fin 1) * 1024 + 1 * (y 0).val = (y 0).val; omega

/-- The product block at point t is batch t / 8 of the products. -/
theorem kvb1_apply (c : Dev nD) (t : Fin cfg1.N) (y : S1x1024x1024.Idx) (i : S4x1024x1024.Idx)
    (h0 : (i 0).val = t.val / 8) (h1 : (i 1).val = (y 1).val) (h2 : (i 2).val = (y 2).val) :
    kvb1 V c t y = (V c main_v0 : S4x1024x1024.Idx → EReal) i := by
  obtain ⟨-, -, -, -, -, -, e0, e1, e2, -⟩ := idx1 t
  show iblk1 V c 3 t y = _
  unfold iblk1
  rw [View.read_apply]
  show V c main_v0 _ = V c main_v0 _
  congr 1
  funext a
  apply Fin.ext
  have hy0 : (y 0).val < 1 := (y 0).isLt
  match a with
  | ⟨0, _⟩ => show win1_3.index t (0 : Fin 3) * 1 + 1 * (y 0).val = (i 0).val; omega
  | ⟨1, _⟩ => show win1_3.index t (1 : Fin 3) * 1024 + 1 * (y 1).val = (i 1).val; omega
  | ⟨2, _⟩ => show win1_3.index t (2 : Fin 3) * 1024 + 1 * (y 2).val = (i 2).val; omega

/-- The dense layer of the x block at point t, row r, is the layer of x at batch t / 8, row 512·(t % 8) + r. -/
theorem linB1_eq (c : Dev nD) (t : Fin cfg1.N) (r : Fin 512) (d : Fin 1024) (β : Fin 4) (n : Fin 4096)
    (hβ : β.val = t.val / 8) (hn : n.val = 512 * (t.val % 8) + r.val) :
    linB (xb1 V c t) (wqb1 V c t) (bqb1 V c t) r d
      = Cert.Attn.lin (V c main_arg0) (V c main_arg1) (V c main_arg2) β n d := by
  unfold linB Cert.Attn.lin
  rw [wqb1_eq V c t, bqb1_eq V c t]
  refine congrArg (· + (V c main_arg2 : S1024.Idx → EReal) (ix1 d)) ?_
  refine Finset.sum_congr rfl fun k _ => ?_
  rw [xb1_apply V c t (ix3 (0 : Fin 1) r k) (ix3 β n k) hβ hn rfl]

/-- The block stored at point t, at row r and column e, is the entry of Q·KV at batch t / 8, row 512·(t % 8) + r. -/
theorem res1_apply (c : Dev nD) (t : Fin cfg1.N) (r : Fin 512) (e : Fin 1024) (β : Fin 4) (n : Fin 4096)
    (hβ : β.val = t.val / 8) (hn : n.val = 512 * (t.val % 8) + r.val) :
    res1 V c t (ix3 (0 : Fin 1) r e)
      = Cert.Attn.out (V c main_arg0) (V c main_arg1) (V c main_arg2) (V c main_v0) β n e := by
  show k1_pay1 (F := Ideal) (xb1 V c t) (wqb1 V c t) (bqb1 V c t) (kvb1 V c t) (ix3 (0 : Fin 1) r e) = _
  refine (k1pay_apply (xb1 V c t) (wqb1 V c t) (bqb1 V c t) (kvb1 V c t) r e).trans ?_
  unfold Cert.Attn.out
  refine Finset.sum_congr rfl fun d _ => ?_
  rw [linB1_eq V c t r d β n hβ hn, kvb1_apply V c t (ix3 (0 : Fin 1) d e) (ix3 β d e) hβ rfl rfl]

/-- The same at any index y of the block and any index i of the array that sits where y does. -/
theorem res1_idx (c : Dev nD) (t : Fin cfg1.N) (y : S1x512x1024.Idx) (i : S4x4096x1024.Idx)
    (h0 : (i 0).val = t.val / 8) (h1 : (i 1).val = 512 * (t.val % 8) + (y 1).val) (h2 : (i 2).val = (y 2).val) :
    res1 V c t y
      = Cert.Attn.outArr (V c main_arg0) (V c main_arg1) (V c main_arg2) (V c main_v0) i := by
  have hy : y = ix3 (0 : Fin 1) (y 1) (y 2) := by
    funext a
    match a with
    | ⟨0, _⟩ => exact Fin.ext (by have : (y 0).val < 1 := (y 0).isLt; show (y 0).val = 0; omega)
    | ⟨1, _⟩ => rfl
    | ⟨2, _⟩ => rfl
  have hi2 : (i 2 : Fin 1024) = y 2 := Fin.ext h2
  refine (congrArg (res1 V c t) hy).trans ?_
  refine (res1_apply V c t (y 1) (y 2) (i 0) (i 1) h0 h1).trans ?_
  show _ = Cert.Attn.out _ _ _ _ (i 0) (i 1) (i 2)
  rw [hi2]

/-- What point t writes back is block t of Q·KV of the arrays as the region finds them. -/
theorem flushed1_eq (c : Dev nD) (t : Fin cfg1.N) :
    (dat1 (F := Ideal) V c).flushed 4 t
      = ((cfg1.win 4).blk t).view.read (Elt Ideal)
          (Cert.Attn.outArr (V c main_arg0) (V c main_arg1) (V c main_arg2) (V c main_v0)) := by
  show (cfg1.win 4).cut (grid1.coords t) ((dat1 V c).after 4 t) = _
  rw [after1_4]
  obtain ⟨-, -, -, -, -, -, -, -, -, e0, e1, e2⟩ := idx1 t
  funext j
  rw [View.read_apply]
  have hj0 : (j 0).val < 1 := (j 0).isLt
  refine res1_idx V c t j (((cfg1.win 4).blk t).view.emb j) ?_ ?_ ?_
  · show win1_4.index t (0 : Fin 3) * 1 + 1 * (j 0).val = t.val / 8; omega
  · show win1_4.index t (1 : Fin 3) * 512 + 1 * (j 1).val = 512 * (t.val % 8) + (j 1).val; omega
  · show win1_4.index t (2 : Fin 3) * 1024 + 1 * (j 2).val = (j 2).val; omega

/-- An index of the output array is in point t's block iff each coordinate is in the block's range on its axis. -/
theorem mem_blk1 (t : Fin cfg1.N) (i : S4x4096x1024.Idx) :
    i ∈ ((cfg1.win 4).blk t).view.set
      ↔ ∀ a : Fin 3, win1_4.index t a * S1x512x1024.size a ≤ (i a).val
          ∧ (i a).val < win1_4.index t a * S1x512x1024.size a + S1x512x1024.size a := by
  show i ∈ ((View.whole main_v1).slice (win1_4.rect t)).set ↔ _
  rw [View.set_slice_whole, Rect.mem_set_unit]
  exact Iff.rfl

/-- Row n of batch β lies in the block of point 8β + n / 512. -/
theorem cover1 (i : S4x4096x1024.Idx) :
    ∃ t : Fin cfg1.N, (cfg1.win 4).flush t = true ∧ i ∈ ((cfg1.win 4).blk t).view.set := by
  have hN : cfg1.N = 32 := N_1
  have hi0 : (i 0).val < 4 := (i 0).isLt
  have hi1 : (i 1).val < 4096 := (i 1).isLt
  have hi2 : (i 2).val < 1024 := (i 2).isLt
  let t : Fin cfg1.N := ⟨8 * (i 0).val + (i 1).val / 512, by omega⟩
  have ht : t.val = 8 * (i 0).val + (i 1).val / 512 := rfl
  obtain ⟨-, -, -, -, -, -, -, -, -, e0, e1, e2⟩ := idx1 t
  refine ⟨t, flush1_4 t, ?_⟩
  rw [mem_blk1]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 512 ≤ (i 1).val ∧ (i 1).val < win1_4.index t (1 : Fin 3) * 512 + 512; omega
  | ⟨2, _⟩ => show win1_4.index t (2 : Fin 3) * 1024 ≤ (i 2).val ∧ (i 2).val < win1_4.index t (2 : Fin 3) * 1024 + 1024; omega

/-- The output array after the region: Q·KV of the arrays as the region finds them. -/
theorem final1 (c : Dev nD) :
    ((dat1 (F := Ideal) V c).arrAt 4 cfg1.N : S4x4096x1024.Idx → EReal)
      = Cert.Attn.outArr (V c main_arg0) (V c main_arg1) (V c main_arg2) (V c main_v0) :=
  (dat1 (F := Ideal) V c).arrAt_eq_of_cover 4
    (Cert.Attn.outArr (V c main_arg0) (V c main_arg1) (V c main_arg2) (V c main_v0))
    (fun t _ => flushed1_eq V c t) cover1

end Cert.KernelIdeal.Hand

end
-- ==== Proof.KI.Value.lean ====
/-
  The idealized kernel's result as a value: the second region finds the intermediate array at the scaled products Kᵀ·V
  (the first region's value) and the arguments as launched, so what its write-backs leave is Q·(Kᵀ·V·2⁻⁵) of the launch
  contents: the specification's function.
-/
import proofs.«101504_j21363167330926_1_alg».proof.Proof.KI.Run
import proofs.«101504_j21363167330926_1_alg».proof.Proof.KI.R0Value
import proofs.«101504_j21363167330926_1_alg».proof.Proof.KI.R1Value
import proofs.«101504_j21363167330926_1_alg».proof.Proof.Spec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt Ideal) ℓ) (ρ : Dev nD → PrngReg)

/-- What region 1's write-backs leave in the result array is the specification's function of the launch contents. -/
theorem value_eq (c : Dev nD) :
    ((dat1 (F := Ideal) (VE1 m ρ) c).arrAt 4 cfg1.N : S4x4096x1024.Idx → EReal)
      = Cert.Attn.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) := by
  rw [final1 (VE1 m ρ) c, VE1_main_v0 m ρ c, final0 (VE0 m ρ) c, VE1_main_arg0 m ρ c, VE1_main_arg1 m ρ c, VE1_main_arg2 m ρ c]
  rfl

/-- The idealized kernel runs, ends with the result array at the specification's function of the arguments, and leaves
    the arguments unchanged. -/
theorem run_value : θ_run defs (onTc (τ := τ) (main (F := Ideal))) ⟨m, fun _ => 0, ρ⟩ (fun r => ∀ c : Dev nD,
      r.2.mem ((c.tc : Thread nD τ).loc main_v1) = Cert.Attn.G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (value_eq m ρ c), (h c).2⟩) (run_main (F := Ideal) m ρ)

end Cert.KernelIdeal.Hand

end
-- ==== Proof.RefIsG.lean ====
/-
  The reference program's result is the one function G of the argument arrays (Spec).
  Its three dense layers are lin of (wq, bq), (wk, bk), (wv, bv); the constant it multiplies the per-batch
  product by is 1 / sqrt 1024 = 1/32; its last contraction is out against the scaled product.
-/
import proofs.«101504_j21363167330926_1_alg».proof.Proof.Gen.ReferenceIdeal.Read
import proofs.«101504_j21363167330926_1_alg».proof.Proof.Spec
import Mathlib.Analysis.Real.Sqrt
import Mathlib.Data.EReal.Basic

noncomputable section

open scoped BigOperators

namespace Cert.Attn.Ref

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-! ## The constants -/

/-- The pattern of 1024.0 denotes the real 1024. -/
theorem ofBits_1024 : Ideal.ofBits .f32 0x44800000#32 = ((1024 : ℝ) : EReal) := by
  simp [Ideal.ofBits, Ideal.ieee, -EReal.coe_mul]; norm_num

/-- The pattern of 1.0 denotes the real 1. -/
theorem ofBits_one : Ideal.ofBits .f32 0x3F800000#32 = ((1 : ℝ) : EReal) := by
  simp [Ideal.ofBits, Ideal.ieee, -EReal.coe_mul]; norm_num

/-- √1024 = 32. -/
theorem sqrt_1024 : Real.sqrt 1024 = 32 := by
  rw [show (1024 : ℝ) = 32 ^ 2 by norm_num]
  exact Real.sqrt_sq (by norm_num)

/-- The reference's scalar 1 / sqrt 1024 is the scale 1/32. -/
theorem scale_eq (j : S_.Idx) : val_main_v13 (F := Ideal) j = Cert.Attn.scale := by
  rw [val_main_v13_apply, val_main_v12_apply, val_main_cst_apply, val_main_cst_0_apply]
  rw [Ideal.hostDivf_def, Ideal.hostUnary_sqrt_def, Ideal.ofBits_def, Ideal.ofBits_def, ofBits_1024, ofBits_one,
    Ideal.sqrt_coe, if_neg (by norm_num), sqrt_1024, Ideal.div_coe (by norm_num)]
  unfold Cert.Attn.scale
  rw [← EReal.coe_mul, one_mul]

/-! ## The indices the contractions read at -/

theorem l0 (j : S4x4096x1024.Idx) (k : Fin 1024) : lidx_main_v0 j k = ix3 (n0 := 4) (n1 := 4096) (n2 := 1024) (j 0) (j 1) k := by
  funext a; match a with | ⟨0, _⟩ => rfl | ⟨1, _⟩ => rfl | ⟨2, _⟩ => rfl
theorem r0 (j : S4x4096x1024.Idx) (k : Fin 1024) : ridx_main_v0 j k = ix2 (n0 := 1024) (n1 := 1024) (j 2) k := by
  funext a; match a with | ⟨0, _⟩ => rfl | ⟨1, _⟩ => rfl
theorem l4 (j : S4x4096x1024.Idx) (k : Fin 1024) : lidx_main_v4 j k = ix3 (n0 := 4) (n1 := 4096) (n2 := 1024) (j 0) (j 1) k := by
  funext a; match a with | ⟨0, _⟩ => rfl | ⟨1, _⟩ => rfl | ⟨2, _⟩ => rfl
theorem r4 (j : S4x4096x1024.Idx) (k : Fin 1024) : ridx_main_v4 j k = ix2 (n0 := 1024) (n1 := 1024) (j 2) k := by
  funext a; match a with | ⟨0, _⟩ => rfl | ⟨1, _⟩ => rfl
theorem l8 (j : S4x4096x1024.Idx) (k : Fin 1024) : lidx_main_v8 j k = ix3 (n0 := 4) (n1 := 4096) (n2 := 1024) (j 0) (j 1) k := by
  funext a; match a with | ⟨0, _⟩ => rfl | ⟨1, _⟩ => rfl | ⟨2, _⟩ => rfl
theorem r8 (j : S4x4096x1024.Idx) (k : Fin 1024) : ridx_main_v8 j k = ix2 (n0 := 1024) (n1 := 1024) (j 2) k := by
  funext a; match a with | ⟨0, _⟩ => rfl | ⟨1, _⟩ => rfl
theorem b1 (j : S4x4096x1024.Idx) : idx_main_v1 (idx_main_v2 j) = ix1 (n := 1024) (j 2) := by
  funext a; match a with | ⟨0, _⟩ => rfl
theorem b5 (j : S4x4096x1024.Idx) : idx_main_v5 (idx_main_v6 j) = ix1 (n := 1024) (j 2) := by
  funext a; match a with | ⟨0, _⟩ => rfl
theorem b9 (j : S4x4096x1024.Idx) : idx_main_v9 (idx_main_v10 j) = ix1 (n := 1024) (j 2) := by
  funext a; match a with | ⟨0, _⟩ => rfl
theorem l14 (j : S4x1024x1024.Idx) (k : Fin 4096) : lidx_main_v14 j k = ix3 (n0 := 4) (n1 := 4096) (n2 := 1024) (j 0) k (j 1) := by
  funext a; match a with | ⟨0, _⟩ => rfl | ⟨1, _⟩ => rfl | ⟨2, _⟩ => rfl
theorem r14 (j : S4x1024x1024.Idx) (k : Fin 4096) : ridx_main_v14 j k = ix3 (n0 := 4) (n1 := 4096) (n2 := 1024) (j 0) k (j 2) := by
  funext a; match a with | ⟨0, _⟩ => rfl | ⟨1, _⟩ => rfl | ⟨2, _⟩ => rfl
theorem l17 (j : S4x4096x1024.Idx) (k : Fin 1024) : lidx_main_v17 j k = ix3 (n0 := 4) (n1 := 4096) (n2 := 1024) (j 0) (j 1) k := by
  funext a; match a with | ⟨0, _⟩ => rfl | ⟨1, _⟩ => rfl | ⟨2, _⟩ => rfl
theorem r17 (j : S4x4096x1024.Idx) (k : Fin 1024) : ridx_main_v17 j k = ix3 (n0 := 4) (n1 := 1024) (n2 := 1024) (j 0) k (j 2) := by
  funext a; match a with | ⟨0, _⟩ => rfl | ⟨1, _⟩ => rfl | ⟨2, _⟩ => rfl

/-! ## The three dense layers -/

theorem q_eq (x0 : (⟨S4x4096x1024, .f32⟩ : BufTy).Contents (Elt Ideal)) (x1 : (⟨S1024x1024, .f32⟩ : BufTy).Contents (Elt Ideal))
    (x2 : (⟨S1024, .f32⟩ : BufTy).Contents (Elt Ideal)) (β : Fin 4) (s : Fin 4096) (e : Fin 1024) :
    val_main_v3 (F := Ideal) x0 x1 x2 (ix3 β s e) = Cert.Attn.lin x0 x1 x2 β s e := by
  rw [val_main_v3_apply, val_main_v0_apply, val_main_v2_apply, val_main_v1_apply, Ideal.addf_def, b1]
  unfold Cert.Attn.lin
  refine congrArg₂ (· + ·) (Finset.sum_congr rfl fun k _ => ?_) rfl
  rw [l0, r0]

theorem k_eq (x0 : (⟨S4x4096x1024, .f32⟩ : BufTy).Contents (Elt Ideal)) (x3 : (⟨S1024x1024, .f32⟩ : BufTy).Contents (Elt Ideal))
    (x4 : (⟨S1024, .f32⟩ : BufTy).Contents (Elt Ideal)) (β : Fin 4) (s : Fin 4096) (e : Fin 1024) :
    val_main_v7 (F := Ideal) x0 x3 x4 (ix3 β s e) = Cert.Attn.lin x0 x3 x4 β s e := by
  rw [val_main_v7_apply, val_main_v4_apply, val_main_v6_apply, val_main_v5_apply, Ideal.addf_def, b5]
  unfold Cert.Attn.lin
  refine congrArg₂ (· + ·) (Finset.sum_congr rfl fun k _ => ?_) rfl
  rw [l4, r4]

theorem v_eq (x0 : (⟨S4x4096x1024, .f32⟩ : BufTy).Contents (Elt Ideal)) (x5 : (⟨S1024x1024, .f32⟩ : BufTy).Contents (Elt Ideal))
    (x6 : (⟨S1024, .f32⟩ : BufTy).Contents (Elt Ideal)) (β : Fin 4) (s : Fin 4096) (e : Fin 1024) :
    val_main_v11 (F := Ideal) x0 x5 x6 (ix3 β s e) = Cert.Attn.lin x0 x5 x6 β s e := by
  rw [val_main_v11_apply, val_main_v8_apply, val_main_v10_apply, val_main_v9_apply, Ideal.addf_def, b9]
  unfold Cert.Attn.lin
  refine congrArg₂ (· + ·) (Finset.sum_congr rfl fun k _ => ?_) rfl
  rw [l8, r8]

/-! ## The scaled per-batch product -/

theorem kv_eq (x0 : (⟨S4x4096x1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (β : Fin 4) (d e : Fin 1024) :
    val_main_v16 (F := Ideal) x0 x3 x4 x5 x6 (ix3 β d e) = Cert.Attn.kv x0 x3 x4 x5 x6 β d e := by
  rw [val_main_v16_apply, val_main_v14_apply, val_main_v15_apply, scale_eq, Ideal.mulf_def]
  unfold Cert.Attn.kv
  refine congrArg₂ (· * ·) (Finset.sum_congr rfl fun s _ => ?_) rfl
  rw [l14, r14]
  exact congrArg₂ (· * ·) (k_eq x0 x3 x4 β s d) (v_eq x0 x5 x6 β s e)

/-! ## The reference is G -/

theorem ref_is_G (x0 : (⟨S4x4096x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) :
    val_main_v17 (F := Ideal) x0 x1 x2 x3 x4 x5 x6 = Cert.Attn.G x0 x1 x2 x3 x4 x5 x6 := by
  funext i
  rw [val_main_v17_apply]
  show _ = Cert.Attn.out x0 x1 x2 (Cert.Attn.kvArr x0 x3 x4 x5 x6) (i 0) (i 1) (i 2)
  unfold Cert.Attn.out
  refine Finset.sum_congr rfl fun d _ => ?_
  rw [l17, r17]
  exact congrArg₂ (· * ·) (q_eq x0 x1 x2 (i 0) (i 1) d) (kv_eq x0 x3 x4 x5 x6 (i 0) d (i 2))

/-! ## The reference's run ends at G -/

/-- Every weakly fair execution of the reference terminates with its result buffer at G of the launch contents of its
    seven arguments, the arguments unchanged. -/
theorem run_G (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = Cert.Attn.G (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono
    (fun _ h c => ⟨(h c).1.trans ((val_main_v17_eq (F := Ideal) _ _ _ _ _ _ _).trans (ref_is_G _ _ _ _ _ _ _)), (h c).2⟩)
    (Cert.ReferenceIdeal.Value.run (F := Ideal) m ρ)

end Cert.Attn.Ref

end
-- ==== Proof.lean ====
/-
  Linear attention without a softmax on [4, 4096, 1024] activations, as two kernels: the first accumulates, per batch and
  over 16 tiles of 256 rows, the scaled product Kᵀ·V·2⁻⁵ of the dense layers K = x·wkᵀ + bk and V = x·wvᵀ + bv; the second
  multiplies the dense layer Q = x·wqᵀ + bq, 512 rows at a time, by the batch's product.  The reference computes
  Q·((Kᵀ·V)·(1/√1024)) with whole-array contractions.  Over the extended reals the two agree entry by entry: 1/√1024 is
  2⁻⁵; the 4096-term sum over the sequence is the sum of its 16 blocks of 256; and multiplying by the nonnegative real
  2⁻⁵ distributes over a sum of extended reals, so scaling each tile's partial product is scaling the whole — no
  finiteness of the inputs is used.  Each kernel program's frame is its run with the result dropped; the idealization
  rewrote nothing, so that conjunct is trivial.
-/
import proofs.«101504_j21363167330926_1_alg».proof.Defs
import proofs.«101504_j21363167330926_1_alg».proof.Proof.Gen.Kernel
import proofs.«101504_j21363167330926_1_alg».proof.Proof.Gen.KernelIdeal
import proofs.«101504_j21363167330926_1_alg».proof.Proof.Gen.ReferenceIdeal
import proofs.«101504_j21363167330926_1_alg».proof.Proof.Gen.Pre_finite_inputs
import proofs.«101504_j21363167330926_1_alg».proof.Proof.KB.Run
import proofs.«101504_j21363167330926_1_alg».proof.Proof.KI.Value
import proofs.«101504_j21363167330926_1_alg».proof.Proof.RefIsG
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ =>
  (θ_run Cert.Kernel.defs _ _).mono (fun _ h c => (h c).2) (Cert.Kernel.Hand.run_main (F := Bits) m ρ)

/-- The idealized kernel runs and leaves its arguments unchanged. -/
theorem frame_ki : Cert.frame_KernelIdeal := fun m ρ _ =>
  (θ_run Cert.KernelIdeal.defs _ _).mono (fun _ h c => (h c).2) (Cert.KernelIdeal.Hand.run_main (F := Ideal) m ρ)

/-- The reference runs and leaves its arguments unchanged. -/
theorem frame_ri : Cert.frame_ReferenceIdeal := fun m ρ _ =>
  (θ_run Cert.ReferenceIdeal.defs _ _).mono (fun _ h c => (h c).2) (Cert.Attn.Ref.run_G m ρ)

/-- The idealization rewrote no operation. -/
theorem preserves : Cert.preserves_Kernel_KernelIdeal := trivial

/-- Both idealized programs end at the specification's function of arguments that agree. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩) (Cert.Attn.Ref.run_G m' ρ')
  rw [(hagree c).1, (hagree c).2.1, (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
